-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072 : Shape := ⟨1, ![131072]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x1024 .f32) (main_arg1 : IVec S131072 32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 50000#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  main_v10
-- ==== Kernel.lean ====
abbrev S131072x1024 : Shape := ⟨2, ![131072, 1024]⟩
abbrev S131072 : Shape := ⟨1, ![131072]⟩
abbrev S_ : Shape := ⟨0, ![]⟩
abbrev S131072x1 : Shape := ⟨2, ![131072, 1]⟩
abbrev S128x1024 : Shape := ⟨2, ![128, 1024]⟩
abbrev S128x1 : Shape := ⟨2, ![128, 1]⟩
abbrev S128 : Shape := ⟨1, ![128]⟩
abbrev S1x131072 : Shape := ⟨2, ![1, 131072]⟩
abbrev S50000x1024 : Shape := ⟨2, ![50000, 1024]⟩
abbrev S1x1024 : Shape := ⟨2, ![1, 1024]⟩
abbrev S1024x1024 : Shape := ⟨2, ![1024, 1024]⟩
abbrev S2000x1024 : Shape := ⟨2, ![2000, 1024]⟩
abbrev S1 : Shape := ⟨1, ![1]⟩
abbrev S2000x1 : Shape := ⟨2, ![2000, 1]⟩

abbrev nBuf : Space → Nat
  | .hbm => 37
  | .vmem => 6
  | .smem => 2
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S131072, .i32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072, .i32⟩
  | .hbm, ⟨22, _⟩ => ⟨S131072x1024, .bf16⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072x1024, .bf16⟩
  | .hbm, ⟨32, _⟩ => ⟨S128x1024, .i32⟩
  | .hbm, ⟨33, _⟩ => ⟨S128x1, .i32⟩
  | .hbm, ⟨34, _⟩ => ⟨S128x1, .i32⟩
  | .hbm, ⟨35, _⟩ => ⟨S1x131072, .i32⟩
  | .hbm, ⟨36, _⟩ => ⟨S50000x1024, .f32⟩
  | .local _ .vmem, ⟨0, _⟩ => ⟨S1x1024, .i32⟩
  | .local _ .vmem, ⟨1, _⟩ => ⟨S1x1024, .i32⟩
  | .local _ .vmem, ⟨2, _⟩ => ⟨S1024x1024, .bf16⟩
  | .local _ .vmem, ⟨3, _⟩ => ⟨S1024x1024, .bf16⟩
  | .local _ .vmem, ⟨4, _⟩ => ⟨S2000x1024, .f32⟩
  | .local _ .vmem, ⟨5, _⟩ => ⟨S2000x1024, .f32⟩
  | .local _ .smem, ⟨0, _⟩ => ⟨S128, .i32⟩
  | .local _ .smem, ⟨1, _⟩ => ⟨S128, .i32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_v0 : Ref sig .tc := ⟨.hbm, 10, rfl⟩
abbrev main_call1_v1_0 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v20 : Ref sig .tc := ⟨.hbm, 34, rfl⟩
abbrev main_v22 : Ref sig .tc := ⟨.hbm, 35, rfl⟩
abbrev main_v23 : Ref sig .tc := ⟨.hbm, 36, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 128], ![false, false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v3 : Index := Scalar.indexCast arg1
  ![v3.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v4 : BitVec 32) (v6 : BitVec 32) : BitVec 1 :=
  let arg0 : BitVec 32 := BitVec.ofNat 32 (i 0).val
  let c2000_i32 : BitVec 32 := 2000#32
  let v7 : BitVec 32 := Scalar.muli arg0 c2000_i32
  let v9 : BitVec 1 := Scalar.cmpi .sge v6 v7
  let c1999_i32 : BitVec 32 := 1999#32
  let v8 : BitVec 32 := Scalar.addi v7 c1999_i32
  let v10 : BitVec 1 := Scalar.cmpi .sle v4 v8
  let v11 : BitVec 1 := Scalar.andi v9 v10
  let v12 : BitVec 32 := Scalar.extui v11
  let c0_i32_1 : BitVec 32 := 0#32
  let v13 : BitVec 1 := Scalar.cmpi .ne v12 c0_i32_1
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bitsLt_bf16_f32 : FTy.bits .bf16 < FTy.bits .f32
  shapeCasts_S131072_S128x1024 : S131072.ShapeCasts S128x1024
  slices_S128x1024_S128x1_0_0 : S128x1024.Slices ![0, 0] S128x1
  shapeCasts_S128x1_S128 : S128x1.ShapeCasts S128
  slices_S128x1024_S128x1_0_1023 : S128x1024.Slices ![0, 1023] S128x1
  shapeCasts_S131072_S1x131072 : S131072.ShapeCasts S1x131072
  inb_S2000x1024_S2000x1024_0_0 : ∀ a, (![0, 0] : Fin 2 → Nat) a + S2000x1024.size a ≤ S2000x1024.size a
  h_S2000x1024 : 0 < S2000x1024.numel
  numel1_S1 : S1.numel = 1
  iota_S2000x1_d0_w32 : S2000x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2000x1_S2000x1024 : S2000x1.Broadcasts S2000x1024
  broadcasts_S1x1024_S2000x1024 : S1x1024.Broadcasts S2000x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2000x1024_S2000x1024 : S2000x1024.ShapeCasts S2000x1024
  gather_S131072_S131072x1_S131072_n_0_n_n_0_1_1_wf : GatherDims.WF S131072 S131072x1 S131072 [] [0] [] [0] [] 1 ![1]
  gather_S131072x1024_S131072x1_S131072x1024_1_0_n_n_0_1_11024_wf : GatherDims.WF S131072x1024 S131072x1 S131072x1024 [1] [0] [] [0] [] 1 ![1, 1024]
  dot_S2000x1024_S1024x1024_S2000x1024_1_0_0_1_n_n_wf : DotDims.WF S2000x1024 S1024x1024 S2000x1024 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x131072.size a
  hwx0_0 : ∀ i : grid0.Coords, EltTy.bits .i32 = 32 ∨ (Rect.block (s := S1x131072) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S131072x1024.size a
  hwx0_1 : ∀ i : grid0.Coords, EltTy.bits .bf16 = 32 ∨ (Rect.block (s := S131072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1024.size a ≤ S50000x1024.size a
  hwx0_2 : ∀ i : grid0.Coords, EltTy.bits .f32 = 32 ∨ (Rect.block (s := S50000x1024) S2000x1024.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def gather_S131072x1024_S131072x1_S131072x1024_1_0_n_n_0_1_11024 : GatherDims S131072x1024 S131072x1 S131072x1024 where
  offsetDims := [1]
  collapsedSliceDims := [0]
  operandBatchingDims := []
  startIndicesBatchingDims := []
  startIndexMap := [0]
  indexVectorDim := 1
  sliceSizes := ![1, 1024]
  wf := gather_S131072x1024_S131072x1_S131072x1024_1_0_n_n_0_1_11024_wf
def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf

abbrev spec0_0 : Pipeline.WinSpec sig grid0.rank :=
  Pipeline.WinSpec.ofSpec (Memref.whole main_v22) S1x1024.size reads0_0 false false 2 stage0_0 sem0_0 nbuf0_0 hstage0_0

abbrev spec0_1 : Pipeline.WinSpec sig grid0.rank :=
  Pipeline.WinSpec.ofSpec (Memref.whole main_v16) S1024x1024.size reads0_1 false false 2 stage0_1 sem0_1 nbuf0_1 hstage0_1

abbrev spec0_2 : Pipeline.WinSpec sig grid0.rank :=
  Pipeline.WinSpec.ofSpec (Memref.whole main_v23) S2000x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 i == 1#1) && !(k0_cond2 i (pf.atD 0 (k0_off1 i)) (pf.atD 1 (k0_off1 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S131072x1024 : Shape := ⟨2, ![131072, 1024]⟩
abbrev S131072 : Shape := ⟨1, ![131072]⟩
abbrev S_ : Shape := ⟨0, ![]⟩
abbrev S50000x1024 : Shape := ⟨2, ![50000, 1024]⟩
abbrev S131072x1 : Shape := ⟨2, ![131072, 1]⟩

abbrev nBuf : Space → Nat
  | .hbm => 13
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S_, .f32⟩
  | .hbm, ⟨3, _⟩ => ⟨S50000x1024, .f32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S50000x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S50000x1024 : S_.BroadcastsInDim S50000x1024 (![] : Fin 0 → Fin S50000x1024.rank)
  bcast_S_S131072 : S_.BroadcastsInDim S131072 (![] : Fin 0 → Fin S131072.rank)
  bcast_S131072_S131072x1_0 : S131072.BroadcastsInDim S131072x1 (![0] : Fin 1 → Fin S131072x1.rank)
  scatter_S50000x1024_S131072x1_S131072x1024_1_0_0_1_wf : ScatterDims.WF S50000x1024 S131072x1 S131072x1024 [1] [0] [0] 1

variable [Facts₀]

def scatter_S50000x1024_S131072x1_S131072x1024_1_0_0_1 : ScatterDims S50000x1024 S131072x1 S131072x1024 where
  updateWindowDims := [1]
  insertedWindowDims := [0]
  scatterDimsToOperandDims := [0]
  indexVectorDim := 1
  wf := scatter_S50000x1024_S131072x1_S131072x1024_1_0_0_1_wf

class Facts : Prop extends Facts₀ where

variable [Facts]
-- ==== Proof.KernelKit.lean ====
/-
  The launch side of the frame of the sorted one-hot scatter kernel, at any float instance: the contents of the
  TensorCore's buffers when the one region is entered (the fold of the host operations before it: the clip of the
  indices, their stable argsort, the two takes through the sorting permutation, the first and last column of the
  sorted indices as the two prefetched tables), the tables read off those contents, each window's block at a grid
  point, the schedule of the grid of 25 × 128 points (both inputs fetched at every point; the output block written
  back exactly at the last index block, k = 127), and the two branch conditions of the body.
-/
import proofs.«403225_j53833120088422_2_alg».proof.Proof.Gen.Kernel.Launch
import proofs.«403225_j53833120088422_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s TensorCore buffers when the region is entered: the launch contents after the four stretches of host
    operations (the two constants, the clip, the argsort, the takes and reshapes). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program up to the region: the four stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes the gradient argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes the index argument: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The two tables (each index block's first and last sorted index) as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table: every contents of the tables is admissible. -/
abbrev adm : (pcfg0 (F := F)).Adm := ⟨tbl m, trivial⟩
abbrev cfgM : Pipeline.Cfg sig Λ₀ := cfg0 (adm m)

/-- Each table as the body is handed it: its whole buffer as a memref. -/
abbrev tbM0_0 : Memref sig .tc .smem S128 .i32 := Memref.whole main_v19
abbrev htbM0_0 : tbM0_0.IsWhole := Memref.isWhole_whole _
abbrev tbM0_1 : Memref sig .tc .smem S128 .i32 := Memref.whole main_v21
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- A table held at half the full share: the body may load its words and nothing may store into it. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The sorted-index window's current staging buffer holds its block at every point. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The sorted-gradient window's current staging buffer holds its block at every point. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (show main_arg0 ∈ Pipeline.restRefs sig spec0 from Pipeline.mem_restRefs_of main_arg0 (by decide) (by decide))).trans (V_main_arg0 m c),
      ((h c).2 main_arg1 (show main_arg1 ∈ Pipeline.restRefs sig spec0 from Pipeline.mem_restRefs_of main_arg1 (by decide) (by decide))).trans (V_main_arg1 m c)⟩) h

/-! ## The schedule of the 25 × 128 points -/

/-- The output block is written back exactly at the last index block of each row block. -/
theorem flush0_2 (a : (pcfg0 (F := F)).Adm) : ∀ t : Fin (cfg0 a).N, ((cfg0 a).win 2).flush t = true ↔ t.val % 128 = 127 :=
  (by decide +kernel : ∀ t : Fin grid0.N, Pipeline.Window.flushOf grid0 true cc0_transform_2 t = true ↔ t.val % 128 = 127)

/-- The current staging memref of each window at point `t`, and its wholeness. -/
abbrev ms0_0 (t : Fin (cfgM m).N) : Memref sig .tc .vmem S1x1024 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1024x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S2000x1024 .f32 := spec0_2.stage ((cfgM m).slots t 2)
abbrev hs0_2 (t : Fin (cfgM m).N) : (ms0_2 m t).IsWhole := hstage0_2 (((cfgM m).slots t 2).cast nbuf0_2)

/-- The kernel body at point `t`, on what the pipeline calls it with. -/
abbrev bodyAt0 (a : (pcfg0 (F := F)).Adm) (t : Fin (cfg0 a).N) : Prog (TpuEff nD τ sig (Elt F) Λ₀ .tc) PUnit :=
  cc0__scatter_kernel (grid0.coords t) (Memref.whole main_v19) (Memref.isWhole_whole _) (Memref.whole main_v21) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## The body's two branch conditions -/

/-- "This is the first index block" (k = 0): the output block is reset. -/
theorem hcond1 : ∀ t : Fin grid0.N, k0_cond1 (grid0.coords t) = 1#1 ↔ t.val % 128 = 0 :=
  (by decide +kernel : ∀ t : Fin grid0.N, k0_cond1 (grid0.coords t) = 1#1 ↔ t.val % 128 = 0)

/-- One staging buffer of the output window, through which its contents are stated. -/
abbrev VO0_2 : View sig .tc .vmem S2000x1024 .f32 := (Memref.whole cc0_stg2_0 : Memref sig .tc .vmem S2000x1024 .f32).view

end Cert.Kernel.Fr

end
-- ==== Proof.KernelBody.lean ====
/-
  The body of the sorted one-hot scatter kernel at one grid point (j, k), at any float instance, and the frame of the
  whole program from it. At k = 0 the body stores zeros into the output block; then it loads the block's first and
  last sorted index from the two tables and, if the interval they span meets the 2000 rows of row block j, adds the
  one-hot product of the index block with the gradient block to the output block. So the output block after point
  (j, k) is a fold over k: `stepB` applied to what point (j, k - 1) left (to zeros at k = 0). Where the interval misses
  the row block the body stores nothing and the block stays what it was; it is written back at k = 127.
-/
import proofs.«403225_j53833120088422_2_alg».proof.Proof.KernelKit
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One point of the fold -/

/-- The word the body loads from a table at the point's index block `k`. -/
def tw (c : Dev nD) (i : grid0.Coords) {M : Memref sig .tc .smem S128 .i32} (xt : TbBuf0 (F := F) c M) : BitVec 32 :=
  M.view.readAt (Elt F) (Rect.unit (s := S128) (k0_off1 i) S1.size (k0_off1_inb i)).toLoadRect xt (Shape.Idx.first (numel1_S1.symm ▸ Nat.one_pos))

/-- The index block's interval [first, last] meets the row block's 2000 rows. -/
def ovl (c : Dev nD) (i : grid0.Coords) (xt0 : TbBuf0 (F := F) c tbM0_0) (xt1 : TbBuf0 (F := F) c tbM0_1) : Prop :=
  k0_cond2 i (tw c i xt0) (tw c i xt1) = 1#1

instance (c : Dev nD) (i : grid0.Coords) (xt0 : TbBuf0 (F := F) c tbM0_0) (xt1 : TbBuf0 (F := F) c tbM0_1) : Decidable (ovl c i xt0 xt1) := by
  unfold ovl; infer_instance

/-- What the body leaves in the output block when it found `xo` there (after the reset, at k = 0): `xo` plus the one-hot
    product where the interval meets the row block, `xo` itself where it does not. -/
def stepB (c : Dev nD) (i : grid0.Coords) (x0 : Vec F S1x1024 .i32) (x1 : Vec F S1024x1024 .bf16) (xo : Vec F S2000x1024 .f32)
    (xt0 : TbBuf0 (F := F) c tbM0_0) (xt1 : TbBuf0 (F := F) c tbM0_1) : Vec F S2000x1024 .f32 :=
  if ovl c i xt0 xt1 then k0_pay2 i x0 x1 xo else xo

theorem stepB_pos (c : Dev nD) (i : grid0.Coords) (x0 : Vec F S1x1024 .i32) (x1 : Vec F S1024x1024 .bf16) (xo : Vec F S2000x1024 .f32)
    (xt0 : TbBuf0 (F := F) c tbM0_0) (xt1 : TbBuf0 (F := F) c tbM0_1) (h : ovl c i xt0 xt1) : stepB c i x0 x1 xo xt0 xt1 = k0_pay2 i x0 x1 xo := if_pos h
theorem stepB_neg (c : Dev nD) (i : grid0.Coords) (x0 : Vec F S1x1024 .i32) (x1 : Vec F S1024x1024 .bf16) (xo : Vec F S2000x1024 .f32)
    (xt0 : TbBuf0 (F := F) c tbM0_0) (xt1 : TbBuf0 (F := F) c tbM0_1) (h : ¬ ovl c i xt0 xt1) : stepB c i x0 x1 xo xt0 xt1 = xo := if_neg h

theorem hz2 : (![0, 0] : Fin S2000x1024.rank → ℕ) = fun _ => 0 := by
  funext a; match a with | ⟨0, _⟩ => rfl | ⟨1, _⟩ => rfl
theorem hz0 : (![0, 0] : Fin S1x1024.rank → ℕ) = fun _ => 0 := by
  funext a; match a with | ⟨0, _⟩ => rfl | ⟨1, _⟩ => rfl
theorem hz1 : (![0, 0] : Fin S1024x1024.rank → ℕ) = fun _ => 0 := by
  funext a; match a with | ⟨0, _⟩ => rfl | ⟨1, _⟩ => rfl

/-- A whole-block load of a whole memref reads its contents. -/
theorem readAt_whole0 (arg : Memref sig .tc .vmem S1x1024 .i32) (h : arg.IsWhole) (x : Vec F S1x1024 .i32) :
    View.readAt (Elt F) arg.view (Rect.unit (s := S1x1024) ![0, 0] S1x1024.size inb_S1x1024_S1x1024_0_0).toLoadRect (h.unread x) = x := by
  rw [View.readAt_eq_ld, h.read_unread, View.ld_unit_zero (S := S1x1024) hz0]
theorem readAt_whole1 (arg : Memref sig .tc .vmem S1024x1024 .bf16) (h : arg.IsWhole) (x : Vec F S1024x1024 .bf16) :
    View.readAt (Elt F) arg.view (Rect.unit (s := S1024x1024) ![0, 0] S1024x1024.size inb_S1024x1024_S1024x1024_0_0).toLoadRect (h.unread x) = x := by
  rw [View.readAt_eq_ld, h.read_unread, View.ld_unit_zero (S := S1024x1024) hz1]
theorem readAt_whole2 (arg : Memref sig .tc .vmem S2000x1024 .f32) (h : arg.IsWhole) (x : Vec F S2000x1024 .f32) :
    View.readAt (Elt F) arg.view (Rect.unit (s := S2000x1024) ![0, 0] S2000x1024.size inb_S2000x1024_S2000x1024_0_0).toLoadRect (h.unread x) = x := by
  rw [View.readAt_eq_ld, h.read_unread, View.ld_unit_zero (S := S2000x1024) hz2]

/-- One whole-block store, or a later one over an earlier one, reads back as the later payload. -/
theorem read_store1 (arg : Memref sig .tc .vmem S2000x1024 .f32) (f : arg.view.ty.Contents (Elt F)) (w : Vec F S2000x1024 .f32) :
    arg.view.read (Elt F) (arg.view.writes (Elt F) f [⟨Rect.unit (s := S2000x1024) ![0, 0] S2000x1024.size inb_S2000x1024_S2000x1024_0_0, w⟩]) = w := by
  rw [View.read_writes_eq_canon _ _ _ (fun y => ⟨_, List.mem_singleton_self _, View.mem_set_unit_zero hz2 inb_S2000x1024_S2000x1024_0_0 y⟩), View.canon_unit_zero hz2]
theorem read_store2 (arg : Memref sig .tc .vmem S2000x1024 .f32) (f : arg.view.ty.Contents (Elt F)) (w w' : Vec F S2000x1024 .f32) :
    arg.view.read (Elt F) (arg.view.writes (Elt F) f [⟨Rect.unit (s := S2000x1024) ![0, 0] S2000x1024.size inb_S2000x1024_S2000x1024_0_0, w⟩,
      ⟨Rect.unit (s := S2000x1024) ![0, 0] S2000x1024.size inb_S2000x1024_S2000x1024_0_0, w'⟩]) = w := by
  rw [View.read_writes_eq_canon _ _ _ (fun y => ⟨_, List.mem_cons_self, View.mem_set_unit_zero hz2 inb_S2000x1024_S2000x1024_0_0 y⟩), View.canon_cons_unit_zero hz2]

/-! ## The body's run, at a point that is not the first of its row block and at one that is -/

set_option maxHeartbeats 1000000 in
/-- At k ≠ 0 the body, finding `xo` in the output block, leaves `stepB … xo` and everything else as it was. -/
theorem runB (c : Dev nD) (i : grid0.Coords) (arg4 : Memref sig .tc .vmem S1x1024 .i32) (harg4 : arg4.IsWhole) (arg5 : Memref sig .tc .vmem S1024x1024 .bf16) (harg5 : arg5.IsWhole) (arg6 : Memref sig .tc .vmem S2000x1024 .f32) (harg6 : arg6.IsWhole)
    (hc1 : ¬ k0_cond1 i = 1#1)
    (x0 : Vec F S1x1024 .i32) (x1 : Vec F S1024x1024 .bf16) (xo : Vec F S2000x1024 .f32) (xt0 : TbBuf0 (F := F) c tbM0_0) (xt1 : TbBuf0 (F := F) c tbM0_1)
    (E : Set ℕ) (K : PUnit → sProp 𝕄) :
    iprop(owns (c : Thread nD τ) arg4 fullShare x0 ∗ owns (c : Thread nD τ) arg5 fullShare x1 ∗ owns (c : Thread nD τ) arg6 fullShare xo ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare (stepB c i x0 x1 xo xt0 xt1) ∗ tbPt0 c tbM0_0 xt0 ∗ tbPt0 c tbM0_1 xt1) -∗ K ⟨⟩))
      ⊢ wp frame (wpE (defs₀ (F := F)) Variants.none c none) E (cc0__scatter_kernel i tbM0_0 htbM0_0 tbM0_1 htbM0_1 arg4 harg4 arg5 harg5 arg6 harg6) K := by
  simp only [cc0__scatter_kernel_eq_skeleton]; unfold cc0__scatter_kernel_skel
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | exact hc1)
  sl_step
  sl_unfold_words
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    split
    · next h => rw [stepB_pos c i x0 x1 xo xt0 xt1 h, read_store1, readAt_whole0, readAt_whole1, readAt_whole2]
    · next h => rw [stepB_neg c i x0 x1 xo xt0 xt1 h]; exact hf2
  isplitl [HT0]; · iexact HT0
  iexact HT1

set_option maxHeartbeats 1000000 in
/-- At k = 0 the body resets the output block to zeros first: it leaves `stepB … zeros`, whatever the block held. -/
theorem runA (c : Dev nD) (i : grid0.Coords) (arg4 : Memref sig .tc .vmem S1x1024 .i32) (harg4 : arg4.IsWhole) (arg5 : Memref sig .tc .vmem S1024x1024 .bf16) (harg5 : arg5.IsWhole) (arg6 : Memref sig .tc .vmem S2000x1024 .f32) (harg6 : arg6.IsWhole)
    (hc1 : k0_cond1 i = 1#1)
    (x0 : Vec F S1x1024 .i32) (x1 : Vec F S1024x1024 .bf16) (xt0 : TbBuf0 (F := F) c tbM0_0) (xt1 : TbBuf0 (F := F) c tbM0_1)
    (E : Set ℕ) (K : PUnit → sProp 𝕄) :
    iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare (stepB c i x0 x1 (k0_pay1 (F := F)) xt0 xt1) ∗ tbPt0 c tbM0_0 xt0 ∗ tbPt0 c tbM0_1 xt1) -∗ K ⟨⟩))
      ⊢ wp frame (wpE (defs₀ (F := F)) Variants.none c none) E (cc0__scatter_kernel i tbM0_0 htbM0_0 tbM0_1 htbM0_1 arg4 harg4 arg5 harg5 arg6 harg6) K := by
  simp only [cc0__scatter_kernel_eq_skeleton]; unfold cc0__scatter_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | exact hc1)
  sl_step
  sl_unfold_words
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    split
    · next h => rw [stepB_pos c i x0 x1 (k0_pay1 (F := F)) xt0 xt1 h, read_store2, readAt_whole0, readAt_whole1, View.readCov_unit_zero (S := S2000x1024) _ hz2]
    · next h => rw [stepB_neg c i x0 x1 (k0_pay1 (F := F)) xt0 xt1 h, read_store1]
  isplitl [HT0]; · iexact HT0
  iexact HT1

end Cert.Kernel.Fr

end
-- ==== Proof.KernelFrame.lean ====
/-
  The frame of the sorted one-hot scatter program, at any float instance: the output block after each of the
  25 × 128 grid points as a fold over the index blocks (`accAt`), the proof data of the one pipeline, what the body
  finds in the output window's staging buffer (at k ≠ 0 what point k - 1 left, whether or not that point stored),
  the body obligation at every point, and the run of the whole program: it terminates, faults nowhere, leaves the
  two arguments unchanged and the result array at what the write-backs at k = 127 wrote.
-/
import proofs.«403225_j53833120088422_2_alg».proof.Proof.KernelBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block after each point -/

/-- The output block after the body at position `n` of the grid (row block n / 128, index block n % 128): one step of the
    fold from zeros at the first index block, from what position n - 1 left at the others. -/
def accAt (c : Dev nD) : (n : ℕ) → n < (cfgM m).N → Vec F S2000x1024 .f32
  | 0, hn => stepB c (grid0.coords ⟨0, hn⟩) (iblk m c 0 ⟨0, hn⟩) (iblk m c 1 ⟨0, hn⟩) (k0_pay1 (F := F)) (tbl m 0) (tbl m 1)
  | n + 1, hn =>
    if (n + 1) % 128 = 0 then
      stepB c (grid0.coords ⟨n + 1, hn⟩) (iblk m c 0 ⟨n + 1, hn⟩) (iblk m c 1 ⟨n + 1, hn⟩) (k0_pay1 (F := F)) (tbl m 0) (tbl m 1)
    else
      stepB c (grid0.coords ⟨n + 1, hn⟩) (iblk m c 0 ⟨n + 1, hn⟩) (iblk m c 1 ⟨n + 1, hn⟩) (accAt c n (Nat.lt_of_succ_lt hn)) (tbl m 0) (tbl m 1)

theorem accAt_A (c : Dev nD) (t : Fin (cfgM m).N) (h0 : t.val % 128 = 0) :
    accAt m c t.val t.isLt = stepB c (grid0.coords t) (iblk m c 0 t) (iblk m c 1 t) (k0_pay1 (F := F)) (tbl m 0) (tbl m 1) := by
  obtain ⟨n, hn⟩ := t
  cases n with
  | zero => exact rfl
  | succ n => exact (if_pos h0).trans rfl

theorem accAt_B (c : Dev nD) (t : Fin (cfgM m).N) (h0 : ¬ t.val % 128 = 0) :
    accAt m c t.val t.isLt = stepB c (grid0.coords t) (iblk m c 0 t) (iblk m c 1 t) (accAt m c (t.val - 1) (Nat.lt_of_le_of_lt (Nat.sub_le _ _) t.isLt)) (tbl m 0) (tbl m 1) := by
  obtain ⟨n, hn⟩ := t
  cases n with
  | zero => exact (by exfalso; (try dsimp only at h0); exact absurd (Nat.zero_mod _) h0)
  | succ n => exact (if_neg h0).trans rfl

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => accAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = accAt m c t.val t.isLt := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d

/-! ## The proof data's cases, for any pipeline -/

section Generic

variable {nD' : Nat} {τ' : Topo} {sig' : RefSig} {Val : EltTy → Type} {Ix : Type} [DecidableEq Ix] {Name : Type} [DecidableEq Name]
  {U : Type} [URA U] {Lvl : Type} {Λ' : Labels} {cfg : Pipeline.Cfg sig' Λ'} {c' : Dev nD'} (dat : Dat τ' Val Ix Name U Lvl cfg c')

/-- At a point idle for the window the body leaves what it found. -/
theorem left_of_idle (w : Fin cfg.W) (t : Fin cfg.N) (d) (hi : cfg.idle w (cfg.grid.coords t) = true) : dat.left w t d = dat.before w t d := by
  unfold Dat.left; rw [hi]
/-- At a live point it leaves what the proof data name. -/
theorem left_of_live (w : Fin cfg.W) (t : Fin cfg.N) (d) (hi : cfg.idle w (cfg.grid.coords t) = false) : dat.left w t d = dat.kept w t d := by
  unfold Dat.left; rw [hi]
theorem leavesExact_of_live (w : Fin cfg.W) (t : Fin cfg.N) (hi : cfg.idle w (cfg.grid.coords t) = false) :
    dat.leavesExact w t = owns (c' : Thread nD' τ') ((cfg.win w).stage (cfg.slots t w)) fullShare (dat.after w t) := by
  unfold Dat.leavesExact; rw [hi]
theorem leavesExact_of_flush (w : Fin cfg.W) (t : Fin cfg.N) (hf : (cfg.win w).flush t = true) :
    dat.leavesExact w t = owns (c' : Thread nD' τ') ((cfg.win w).stage (cfg.slots t w)) fullShare (dat.after w t) := by
  unfold Dat.leavesExact; cases cfg.idle w (cfg.grid.coords t) <;> simp only [hf]

end Generic

/-! ## Where the output window is idle -/

set_option maxHeartbeats 400000 in
/-- The pipeline's idle test of the output window at a point, spelled out. -/
theorem idle_eq (a : (pcfg0 (F := F)).Adm) (pf : pre0.Contents (Elt F)) (hpf : a.1 = pf) (t : Fin (cfg0 a).N) : (cfg0 a).idle 2 ((cfg0 a).grid.coords t)
    = (!(k0_cond1 (grid0.coords t) == 1#1) && !(k0_cond2 (grid0.coords t) (pf.atD 0 (k0_off1 (grid0.coords t))) (pf.atD 1 (k0_off1 (grid0.coords t))) == 1#1)) := by
  subst hpf; rfl

/-- The table word the pipeline's idle test reads is the word the body loads. -/
theorem atD0_eq_tw (c : Dev nD) (i : grid0.Coords) : (tbl m).atD 0 (k0_off1 i) = tw c i (M := tbM0_0) (tbl m 0) := by
  unfold Pipeline.Prefetch.Contents.atD tw
  rw [dif_pos (fun a => by match a with | ⟨0, _⟩ => exact k0_off1_inb i 0)]
  refine (congrArg (tbl m 0) ?_ : (tbl m 0) _ = (tbl m 0) ((Rect.unit (s := S128) (k0_off1 i) S1.size (k0_off1_inb i)).toLoadRect.idx (Shape.Idx.first (numel1_S1.symm ▸ Nat.one_pos))))
  funext a
  match a with
  | ⟨0, _⟩ => exact Fin.ext (show (k0_off1 i 0) = (k0_off1 i 0) + 1 * 0 by omega)
theorem atD1_eq_tw (c : Dev nD) (i : grid0.Coords) : (tbl m).atD 1 (k0_off1 i) = tw c i (M := tbM0_1) (tbl m 1) := by
  unfold Pipeline.Prefetch.Contents.atD tw
  rw [dif_pos (fun a => by match a with | ⟨0, _⟩ => exact k0_off1_inb i 0)]
  refine (congrArg (tbl m 1) ?_ : (tbl m 1) _ = (tbl m 1) ((Rect.unit (s := S128) (k0_off1 i) S1.size (k0_off1_inb i)).toLoadRect.idx (Shape.Idx.first (numel1_S1.symm ▸ Nat.one_pos))))
  funext a
  match a with
  | ⟨0, _⟩ => exact Fin.ext (show (k0_off1 i 0) = (k0_off1 i 0) + 1 * 0 by omega)

/-- The output window is idle at a point exactly where the body stores nothing: not the first index block, and the
    interval misses the row block. -/
theorem idle_iff (c : Dev nD) (t : Fin (cfgM m).N) :
    (cfgM m).idle 2 ((cfgM m).grid.coords t) = true ↔ (¬ t.val % 128 = 0 ∧ ¬ ovl c (grid0.coords t) (tbl m 0) (tbl m 1)) := by
  rw [idle_eq (adm m) (tbl m) rfl t, atD0_eq_tw m c, atD1_eq_tw m c]
  simp only [Bool.and_eq_true, Bool.not_eq_true', beq_eq_false_iff_ne, ne_eq]
  unfold ovl
  rw [hcond1 t]

/-- At k ≠ 0 the output window's staging buffer holds what position n - 1 left, whether or not that position stored. -/
theorem before0_2_aux (c : Dev nD) : ∀ (n : ℕ) (hn : n < (cfgM m).N), ¬ n % 128 = 0 → ∀ d,
    (dats m 0 c).before 2 ⟨n, hn⟩ d = accAt m c (n - 1) (Nat.lt_of_le_of_lt (Nat.sub_le _ _) hn)
  | 0, _, h0, _ => absurd (Nat.zero_mod _) h0
  | n + 1, hn, h0, d => by
    have hn' : n < (cfgM m).N := Nat.lt_of_succ_lt hn
    have hN : n + 1 < 3200 := lt_of_lt_of_eq hn (show (cfgM m).N = 3200 from N_0)
    rw [Dat.before_of_pos _ 2 ⟨n + 1, hn⟩ (Nat.succ_ne_zero n) (((cfgM m).win 2).fetch_out rfl _) d]
    have hfl : ((cfgM m).win 2).flush ⟨n + 1 - 1, Nat.lt_of_le_of_lt (Nat.sub_le _ _) hn⟩ = false :=
      Bool.eq_false_iff.mpr fun h => by have := (flush0_2 (adm m) _).mp h; dsimp only at this; omega
    rw [hfl, if_neg Bool.false_ne_true]
    show (dats m 0 c).left 2 ⟨n, hn'⟩ d = accAt m c n hn'
    by_cases hi : (cfgM m).idle 2 ((cfgM m).grid.coords ⟨n, hn'⟩) = true
    · rw [left_of_idle _ 2 ⟨n, hn'⟩ d hi]
      obtain ⟨hk, hov⟩ := (idle_iff m c ⟨n, hn'⟩).mp hi
      rw [before0_2_aux c n hn' hk d]
      exact ((accAt_B m c ⟨n, hn'⟩ hk).trans (stepB_neg _ _ _ _ _ _ _ hov)).symm
    · have hi' : (cfgM m).idle 2 ((cfgM m).grid.coords ⟨n, hn'⟩) = false := Bool.eq_false_iff.mpr hi
      rw [left_of_live _ 2 ⟨n, hn'⟩ d hi']
      unfold Dat.kept
      rw [Pipeline.fill_of_clip_none 2 _ (fun _ => rfl) d ((dats m 0 c).after 2 ⟨n, hn'⟩), Window.fill_cut]
      exact after0_2 m c ⟨n, hn'⟩

theorem before0_2 (c : Dev nD) (t : Fin (cfgM m).N) (h0 : ¬ t.val % 128 = 0) (d) :
    (dats m 0 c).before 2 t d = accAt m c (t.val - 1) (Nat.lt_of_le_of_lt (Nat.sub_le _ _) t.isLt) :=
  before0_2_aux m c t.val t.isLt h0 d

/-- The output window's buffer at the fold's value is what the obligation asks of it at every point: where the body
    stored, what it stored; where it did not (and the block is not written back), what it found. -/
theorem leaves2 (c : Dev nD) (t : Fin (cfgM m).N) :
    owns (c : Thread nD τ) (ms0_2 m t) fullShare (accAt m c t.val t.isLt) ⊢ ((dats m 0 c).leavesExact 2 t : sProp 𝕄) := by
  by_cases hi : (cfgM m).idle 2 ((cfgM m).grid.coords t) = true
  · by_cases hf : ((cfgM m).win 2).flush t = true
    · rw [leavesExact_of_flush _ 2 t hf, after0_2]; exact .rfl
    · have hf' : ((cfgM m).win 2).flush t = false := Bool.eq_false_iff.mpr hf
      rw [Dat.leavesExact_idle _ 2 t hi hf']
      obtain ⟨hk, hov⟩ := (idle_iff m c t).mp hi
      have e : ∀ d, (dats m 0 c).before 2 t d = accAt m c t.val t.isLt := fun d =>
        (before0_2 m c t hk d).trans ((accAt_B m c t hk).trans (stepB_neg _ _ _ _ _ _ _ hov)).symm
      simp only [e]
      iintro H; iexists ((dats m 0 c).after 2 t); iexact H
  · have hi' : (cfgM m).idle 2 ((cfgM m).grid.coords t) = false := Bool.eq_false_iff.mpr hi
    rw [leavesExact_of_live _ 2 t hi', after0_2]; exact .rfl

/-! ## The body obligation, at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ (dats m 0 c).leavesExact 2 t)

set_option maxHeartbeats 800000 in
/-- The body at any point: the inputs' buffers hold their blocks; at k = 0 the run with the reset applies, at k ≠ 0 the
    run over what the point before left; the tables and the invariant pass through. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = iprop(Pipeline.ΦA spec0 c ∗ Pipeline.ΦT pre0 (tbl m) c) from rfl, PhiT0_eq]
  by_cases h0 : t.val % 128 = 0
  · iintro ⟨⟨HΦ, ⟨HT0, HT1⟩⟩, Ho, ⟨%d0, H0⟩, ⟨%d1, H1⟩, ⟨%d2, H2⟩⟩
    iapply (runA c (grid0.coords t) _ (hs0_0 m t) _ (hs0_1 m t) _ (hs0_2 m t) ((hcond1 t).mpr h0) (iblk m c 0 t) (iblk m c 1 t) (tbl m 0) (tbl m 1) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    rw [← accAt_A m c t h0]
    iapply (leaves2 m c t); iexact H2
  · simp only [before0_2 m c t h0]
    iintro ⟨⟨HΦ, ⟨HT0, HT1⟩⟩, Ho, ⟨%d0, H0⟩, ⟨%d1, H1⟩, ⟨%d2, H2⟩⟩
    iapply (runB c (grid0.coords t) _ (hs0_0 m t) _ (hs0_1 m t) _ (hs0_2 m t) (fun h => h0 ((hcond1 t).mp h)) (iblk m c 0 t) (iblk m c 1 t) _ (tbl m 0) (tbl m 1) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    rw [← accAt_B m c t h0]
    iapply (leaves2 m c t); iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the write-backs leave and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs to the end, faults nowhere, and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KernelIdealKit.lean ====
/-
  The launch side of the frame of the sorted one-hot scatter kernel, at any float instance: the contents of the
  TensorCore's buffers when the one region is entered (the fold of the host operations before it: the clip of the
  indices, their stable argsort, the two takes through the sorting permutation, the first and last column of the
  sorted indices as the two prefetched tables), the tables read off those contents, each window's block at a grid
  point, the schedule of the grid of 25 × 128 points (both inputs fetched at every point; the output block written
  back exactly at the last index block, k = 127), and the two branch conditions of the body.
-/
import proofs.«403225_j53833120088422_2_alg».proof.Proof.Gen.KernelIdeal.Launch
import proofs.«403225_j53833120088422_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s TensorCore buffers when the region is entered: the launch contents after the four stretches of host
    operations (the two constants, the clip, the argsort, the takes and reshapes). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program up to the region: the four stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes the gradient argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes the index argument: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The two tables (each index block's first and last sorted index) as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table: every contents of the tables is admissible. -/
abbrev adm : (pcfg0 (F := F)).Adm := ⟨tbl m, trivial⟩
abbrev cfgM : Pipeline.Cfg sig Λ₀ := cfg0 (adm m)

/-- Each table as the body is handed it: its whole buffer as a memref. -/
abbrev tbM0_0 : Memref sig .tc .smem S128 .i32 := Memref.whole main_v19
abbrev htbM0_0 : tbM0_0.IsWhole := Memref.isWhole_whole _
abbrev tbM0_1 : Memref sig .tc .smem S128 .i32 := Memref.whole main_v21
abbrev htbM0_1 : tbM0_1.IsWhole := Memref.isWhole_whole _

abbrev TbBuf0 (c : Dev nD) {S : Shape} {e : EltTy} (M : Memref sig .tc .smem S e) : Type := Buf (Elt F) (M.view.loc (c : Thread nD τ))
/-- A table held at half the full share: the body may load its words and nothing may store into it. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The sorted-index window's current staging buffer holds its block at every point. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The sorted-gradient window's current staging buffer holds its block at every point. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (show main_arg0 ∈ Pipeline.restRefs sig spec0 from Pipeline.mem_restRefs_of main_arg0 (by decide) (by decide))).trans (V_main_arg0 m c),
      ((h c).2 main_arg1 (show main_arg1 ∈ Pipeline.restRefs sig spec0 from Pipeline.mem_restRefs_of main_arg1 (by decide) (by decide))).trans (V_main_arg1 m c)⟩) h

/-! ## The schedule of the 25 × 128 points -/

/-- The output block is written back exactly at the last index block of each row block. -/
theorem flush0_2 (a : (pcfg0 (F := F)).Adm) : ∀ t : Fin (cfg0 a).N, ((cfg0 a).win 2).flush t = true ↔ t.val % 128 = 127 :=
  (by decide +kernel : ∀ t : Fin grid0.N, Pipeline.Window.flushOf grid0 true cc0_transform_2 t = true ↔ t.val % 128 = 127)

/-- The current staging memref of each window at point `t`, and its wholeness. -/
abbrev ms0_0 (t : Fin (cfgM m).N) : Memref sig .tc .vmem S1x1024 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1024x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S2000x1024 .f32 := spec0_2.stage ((cfgM m).slots t 2)
abbrev hs0_2 (t : Fin (cfgM m).N) : (ms0_2 m t).IsWhole := hstage0_2 (((cfgM m).slots t 2).cast nbuf0_2)

/-- The kernel body at point `t`, on what the pipeline calls it with. -/
abbrev bodyAt0 (a : (pcfg0 (F := F)).Adm) (t : Fin (cfg0 a).N) : Prog (TpuEff nD τ sig (Elt F) Λ₀ .tc) PUnit :=
  cc0__scatter_kernel (grid0.coords t) (Memref.whole main_v19) (Memref.isWhole_whole _) (Memref.whole main_v21) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## The body's two branch conditions -/

/-- "This is the first index block" (k = 0): the output block is reset. -/
theorem hcond1 : ∀ t : Fin grid0.N, k0_cond1 (grid0.coords t) = 1#1 ↔ t.val % 128 = 0 :=
  (by decide +kernel : ∀ t : Fin grid0.N, k0_cond1 (grid0.coords t) = 1#1 ↔ t.val % 128 = 0)

/-- One staging buffer of the output window, through which its contents are stated. -/
abbrev VO0_2 : View sig .tc .vmem S2000x1024 .f32 := (Memref.whole cc0_stg2_0 : Memref sig .tc .vmem S2000x1024 .f32).view

end Cert.KernelIdeal.Fr

end
-- ==== Proof.KernelIdealBody.lean ====
/-
  The body of the sorted one-hot scatter kernel at one grid point (j, k), at any float instance, and the frame of the
  whole program from it. At k = 0 the body stores zeros into the output block; then it loads the block's first and
  last sorted index from the two tables and, if the interval they span meets the 2000 rows of row block j, adds the
  one-hot product of the index block with the gradient block to the output block. So the output block after point
  (j, k) is a fold over k: `stepB` applied to what point (j, k - 1) left (to zeros at k = 0). Where the interval misses
  the row block the body stores nothing and the block stays what it was; it is written back at k = 127.
-/
import proofs.«403225_j53833120088422_2_alg».proof.Proof.KernelIdealKit
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One point of the fold -/

/-- The word the body loads from a table at the point's index block `k`. -/
def tw (c : Dev nD) (i : grid0.Coords) {M : Memref sig .tc .smem S128 .i32} (xt : TbBuf0 (F := F) c M) : BitVec 32 :=
  M.view.readAt (Elt F) (Rect.unit (s := S128) (k0_off1 i) S1.size (k0_off1_inb i)).toLoadRect xt (Shape.Idx.first (numel1_S1.symm ▸ Nat.one_pos))

/-- The index block's interval [first, last] meets the row block's 2000 rows. -/
def ovl (c : Dev nD) (i : grid0.Coords) (xt0 : TbBuf0 (F := F) c tbM0_0) (xt1 : TbBuf0 (F := F) c tbM0_1) : Prop :=
  k0_cond2 i (tw c i xt0) (tw c i xt1) = 1#1

instance (c : Dev nD) (i : grid0.Coords) (xt0 : TbBuf0 (F := F) c tbM0_0) (xt1 : TbBuf0 (F := F) c tbM0_1) : Decidable (ovl c i xt0 xt1) := by
  unfold ovl; infer_instance

/-- What the body leaves in the output block when it found `xo` there (after the reset, at k = 0): `xo` plus the one-hot
    product where the interval meets the row block, `xo` itself where it does not. -/
def stepB (c : Dev nD) (i : grid0.Coords) (x0 : Vec F S1x1024 .i32) (x1 : Vec F S1024x1024 .bf16) (xo : Vec F S2000x1024 .f32)
    (xt0 : TbBuf0 (F := F) c tbM0_0) (xt1 : TbBuf0 (F := F) c tbM0_1) : Vec F S2000x1024 .f32 :=
  if ovl c i xt0 xt1 then k0_pay2 i x0 x1 xo else xo

theorem stepB_pos (c : Dev nD) (i : grid0.Coords) (x0 : Vec F S1x1024 .i32) (x1 : Vec F S1024x1024 .bf16) (xo : Vec F S2000x1024 .f32)
    (xt0 : TbBuf0 (F := F) c tbM0_0) (xt1 : TbBuf0 (F := F) c tbM0_1) (h : ovl c i xt0 xt1) : stepB c i x0 x1 xo xt0 xt1 = k0_pay2 i x0 x1 xo := if_pos h
theorem stepB_neg (c : Dev nD) (i : grid0.Coords) (x0 : Vec F S1x1024 .i32) (x1 : Vec F S1024x1024 .bf16) (xo : Vec F S2000x1024 .f32)
    (xt0 : TbBuf0 (F := F) c tbM0_0) (xt1 : TbBuf0 (F := F) c tbM0_1) (h : ¬ ovl c i xt0 xt1) : stepB c i x0 x1 xo xt0 xt1 = xo := if_neg h

theorem hz2 : (![0, 0] : Fin S2000x1024.rank → ℕ) = fun _ => 0 := by
  funext a; match a with | ⟨0, _⟩ => rfl | ⟨1, _⟩ => rfl
theorem hz0 : (![0, 0] : Fin S1x1024.rank → ℕ) = fun _ => 0 := by
  funext a; match a with | ⟨0, _⟩ => rfl | ⟨1, _⟩ => rfl
theorem hz1 : (![0, 0] : Fin S1024x1024.rank → ℕ) = fun _ => 0 := by
  funext a; match a with | ⟨0, _⟩ => rfl | ⟨1, _⟩ => rfl

/-- A whole-block load of a whole memref reads its contents. -/
theorem readAt_whole0 (arg : Memref sig .tc .vmem S1x1024 .i32) (h : arg.IsWhole) (x : Vec F S1x1024 .i32) :
    View.readAt (Elt F) arg.view (Rect.unit (s := S1x1024) ![0, 0] S1x1024.size inb_S1x1024_S1x1024_0_0).toLoadRect (h.unread x) = x := by
  rw [View.readAt_eq_ld, h.read_unread, View.ld_unit_zero (S := S1x1024) hz0]
theorem readAt_whole1 (arg : Memref sig .tc .vmem S1024x1024 .bf16) (h : arg.IsWhole) (x : Vec F S1024x1024 .bf16) :
    View.readAt (Elt F) arg.view (Rect.unit (s := S1024x1024) ![0, 0] S1024x1024.size inb_S1024x1024_S1024x1024_0_0).toLoadRect (h.unread x) = x := by
  rw [View.readAt_eq_ld, h.read_unread, View.ld_unit_zero (S := S1024x1024) hz1]
theorem readAt_whole2 (arg : Memref sig .tc .vmem S2000x1024 .f32) (h : arg.IsWhole) (x : Vec F S2000x1024 .f32) :
    View.readAt (Elt F) arg.view (Rect.unit (s := S2000x1024) ![0, 0] S2000x1024.size inb_S2000x1024_S2000x1024_0_0).toLoadRect (h.unread x) = x := by
  rw [View.readAt_eq_ld, h.read_unread, View.ld_unit_zero (S := S2000x1024) hz2]

/-- One whole-block store, or a later one over an earlier one, reads back as the later payload. -/
theorem read_store1 (arg : Memref sig .tc .vmem S2000x1024 .f32) (f : arg.view.ty.Contents (Elt F)) (w : Vec F S2000x1024 .f32) :
    arg.view.read (Elt F) (arg.view.writes (Elt F) f [⟨Rect.unit (s := S2000x1024) ![0, 0] S2000x1024.size inb_S2000x1024_S2000x1024_0_0, w⟩]) = w := by
  rw [View.read_writes_eq_canon _ _ _ (fun y => ⟨_, List.mem_singleton_self _, View.mem_set_unit_zero hz2 inb_S2000x1024_S2000x1024_0_0 y⟩), View.canon_unit_zero hz2]
theorem read_store2 (arg : Memref sig .tc .vmem S2000x1024 .f32) (f : arg.view.ty.Contents (Elt F)) (w w' : Vec F S2000x1024 .f32) :
    arg.view.read (Elt F) (arg.view.writes (Elt F) f [⟨Rect.unit (s := S2000x1024) ![0, 0] S2000x1024.size inb_S2000x1024_S2000x1024_0_0, w⟩,
      ⟨Rect.unit (s := S2000x1024) ![0, 0] S2000x1024.size inb_S2000x1024_S2000x1024_0_0, w'⟩]) = w := by
  rw [View.read_writes_eq_canon _ _ _ (fun y => ⟨_, List.mem_cons_self, View.mem_set_unit_zero hz2 inb_S2000x1024_S2000x1024_0_0 y⟩), View.canon_cons_unit_zero hz2]

/-! ## The body's run, at a point that is not the first of its row block and at one that is -/

set_option maxHeartbeats 1000000 in
/-- At k ≠ 0 the body, finding `xo` in the output block, leaves `stepB … xo` and everything else as it was. -/
theorem runB (c : Dev nD) (i : grid0.Coords) (arg4 : Memref sig .tc .vmem S1x1024 .i32) (harg4 : arg4.IsWhole) (arg5 : Memref sig .tc .vmem S1024x1024 .bf16) (harg5 : arg5.IsWhole) (arg6 : Memref sig .tc .vmem S2000x1024 .f32) (harg6 : arg6.IsWhole)
    (hc1 : ¬ k0_cond1 i = 1#1)
    (x0 : Vec F S1x1024 .i32) (x1 : Vec F S1024x1024 .bf16) (xo : Vec F S2000x1024 .f32) (xt0 : TbBuf0 (F := F) c tbM0_0) (xt1 : TbBuf0 (F := F) c tbM0_1)
    (E : Set ℕ) (K : PUnit → sProp 𝕄) :
    iprop(owns (c : Thread nD τ) arg4 fullShare x0 ∗ owns (c : Thread nD τ) arg5 fullShare x1 ∗ owns (c : Thread nD τ) arg6 fullShare xo ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare (stepB c i x0 x1 xo xt0 xt1) ∗ tbPt0 c tbM0_0 xt0 ∗ tbPt0 c tbM0_1 xt1) -∗ K ⟨⟩))
      ⊢ wp frame (wpE (defs₀ (F := F)) Variants.none c none) E (cc0__scatter_kernel i tbM0_0 htbM0_0 tbM0_1 htbM0_1 arg4 harg4 arg5 harg5 arg6 harg6) K := by
  simp only [cc0__scatter_kernel_eq_skeleton]; unfold cc0__scatter_kernel_skel
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | exact hc1)
  sl_step
  sl_unfold_words
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    split
    · next h => rw [stepB_pos c i x0 x1 xo xt0 xt1 h, read_store1, readAt_whole0, readAt_whole1, readAt_whole2]
    · next h => rw [stepB_neg c i x0 x1 xo xt0 xt1 h]; exact hf2
  isplitl [HT0]; · iexact HT0
  iexact HT1

set_option maxHeartbeats 1000000 in
/-- At k = 0 the body resets the output block to zeros first: it leaves `stepB … zeros`, whatever the block held. -/
theorem runA (c : Dev nD) (i : grid0.Coords) (arg4 : Memref sig .tc .vmem S1x1024 .i32) (harg4 : arg4.IsWhole) (arg5 : Memref sig .tc .vmem S1024x1024 .bf16) (harg5 : arg5.IsWhole) (arg6 : Memref sig .tc .vmem S2000x1024 .f32) (harg6 : arg6.IsWhole)
    (hc1 : k0_cond1 i = 1#1)
    (x0 : Vec F S1x1024 .i32) (x1 : Vec F S1024x1024 .bf16) (xt0 : TbBuf0 (F := F) c tbM0_0) (xt1 : TbBuf0 (F := F) c tbM0_1)
    (E : Set ℕ) (K : PUnit → sProp 𝕄) :
    iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare (stepB c i x0 x1 (k0_pay1 (F := F)) xt0 xt1) ∗ tbPt0 c tbM0_0 xt0 ∗ tbPt0 c tbM0_1 xt1) -∗ K ⟨⟩))
      ⊢ wp frame (wpE (defs₀ (F := F)) Variants.none c none) E (cc0__scatter_kernel i tbM0_0 htbM0_0 tbM0_1 htbM0_1 arg4 harg4 arg5 harg5 arg6 harg6) K := by
  simp only [cc0__scatter_kernel_eq_skeleton]; unfold cc0__scatter_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | exact hc1)
  sl_step
  sl_unfold_words
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    split
    · next h => rw [stepB_pos c i x0 x1 (k0_pay1 (F := F)) xt0 xt1 h, read_store2, readAt_whole0, readAt_whole1, View.readCov_unit_zero (S := S2000x1024) _ hz2]
    · next h => rw [stepB_neg c i x0 x1 (k0_pay1 (F := F)) xt0 xt1 h, read_store1]
  isplitl [HT0]; · iexact HT0
  iexact HT1

end Cert.KernelIdeal.Fr

end
-- ==== Proof.KernelIdealFrame.lean ====
/-
  The frame of the sorted one-hot scatter program, at any float instance: the output block after each of the
  25 × 128 grid points as a fold over the index blocks (`accAt`), the proof data of the one pipeline, what the body
  finds in the output window's staging buffer (at k ≠ 0 what point k - 1 left, whether or not that point stored),
  the body obligation at every point, and the run of the whole program: it terminates, faults nowhere, leaves the
  two arguments unchanged and the result array at what the write-backs at k = 127 wrote.
-/
import proofs.«403225_j53833120088422_2_alg».proof.Proof.KernelIdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block after each point -/

/-- The output block after the body at position `n` of the grid (row block n / 128, index block n % 128): one step of the
    fold from zeros at the first index block, from what position n - 1 left at the others. -/
def accAt (c : Dev nD) : (n : ℕ) → n < (cfgM m).N → Vec F S2000x1024 .f32
  | 0, hn => stepB c (grid0.coords ⟨0, hn⟩) (iblk m c 0 ⟨0, hn⟩) (iblk m c 1 ⟨0, hn⟩) (k0_pay1 (F := F)) (tbl m 0) (tbl m 1)
  | n + 1, hn =>
    if (n + 1) % 128 = 0 then
      stepB c (grid0.coords ⟨n + 1, hn⟩) (iblk m c 0 ⟨n + 1, hn⟩) (iblk m c 1 ⟨n + 1, hn⟩) (k0_pay1 (F := F)) (tbl m 0) (tbl m 1)
    else
      stepB c (grid0.coords ⟨n + 1, hn⟩) (iblk m c 0 ⟨n + 1, hn⟩) (iblk m c 1 ⟨n + 1, hn⟩) (accAt c n (Nat.lt_of_succ_lt hn)) (tbl m 0) (tbl m 1)

theorem accAt_A (c : Dev nD) (t : Fin (cfgM m).N) (h0 : t.val % 128 = 0) :
    accAt m c t.val t.isLt = stepB c (grid0.coords t) (iblk m c 0 t) (iblk m c 1 t) (k0_pay1 (F := F)) (tbl m 0) (tbl m 1) := by
  obtain ⟨n, hn⟩ := t
  cases n with
  | zero => exact rfl
  | succ n => exact (if_pos h0).trans rfl

theorem accAt_B (c : Dev nD) (t : Fin (cfgM m).N) (h0 : ¬ t.val % 128 = 0) :
    accAt m c t.val t.isLt = stepB c (grid0.coords t) (iblk m c 0 t) (iblk m c 1 t) (accAt m c (t.val - 1) (Nat.lt_of_le_of_lt (Nat.sub_le _ _) t.isLt)) (tbl m 0) (tbl m 1) := by
  obtain ⟨n, hn⟩ := t
  cases n with
  | zero => exact (by exfalso; (try dsimp only at h0); exact absurd (Nat.zero_mod _) h0)
  | succ n => exact (if_neg h0).trans rfl

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => accAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = accAt m c t.val t.isLt := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d

/-! ## The proof data's cases, for any pipeline -/

section Generic

variable {nD' : Nat} {τ' : Topo} {sig' : RefSig} {Val : EltTy → Type} {Ix : Type} [DecidableEq Ix] {Name : Type} [DecidableEq Name]
  {U : Type} [URA U] {Lvl : Type} {Λ' : Labels} {cfg : Pipeline.Cfg sig' Λ'} {c' : Dev nD'} (dat : Dat τ' Val Ix Name U Lvl cfg c')

/-- At a point idle for the window the body leaves what it found. -/
theorem left_of_idle (w : Fin cfg.W) (t : Fin cfg.N) (d) (hi : cfg.idle w (cfg.grid.coords t) = true) : dat.left w t d = dat.before w t d := by
  unfold Dat.left; rw [hi]
/-- At a live point it leaves what the proof data name. -/
theorem left_of_live (w : Fin cfg.W) (t : Fin cfg.N) (d) (hi : cfg.idle w (cfg.grid.coords t) = false) : dat.left w t d = dat.kept w t d := by
  unfold Dat.left; rw [hi]
theorem leavesExact_of_live (w : Fin cfg.W) (t : Fin cfg.N) (hi : cfg.idle w (cfg.grid.coords t) = false) :
    dat.leavesExact w t = owns (c' : Thread nD' τ') ((cfg.win w).stage (cfg.slots t w)) fullShare (dat.after w t) := by
  unfold Dat.leavesExact; rw [hi]
theorem leavesExact_of_flush (w : Fin cfg.W) (t : Fin cfg.N) (hf : (cfg.win w).flush t = true) :
    dat.leavesExact w t = owns (c' : Thread nD' τ') ((cfg.win w).stage (cfg.slots t w)) fullShare (dat.after w t) := by
  unfold Dat.leavesExact; cases cfg.idle w (cfg.grid.coords t) <;> simp only [hf]

end Generic

/-! ## Where the output window is idle -/

set_option maxHeartbeats 400000 in
/-- The pipeline's idle test of the output window at a point, spelled out. -/
theorem idle_eq (a : (pcfg0 (F := F)).Adm) (pf : pre0.Contents (Elt F)) (hpf : a.1 = pf) (t : Fin (cfg0 a).N) : (cfg0 a).idle 2 ((cfg0 a).grid.coords t)
    = (!(k0_cond1 (grid0.coords t) == 1#1) && !(k0_cond2 (grid0.coords t) (pf.atD 0 (k0_off1 (grid0.coords t))) (pf.atD 1 (k0_off1 (grid0.coords t))) == 1#1)) := by
  subst hpf; rfl

/-- The table word the pipeline's idle test reads is the word the body loads. -/
theorem atD0_eq_tw (c : Dev nD) (i : grid0.Coords) : (tbl m).atD 0 (k0_off1 i) = tw c i (M := tbM0_0) (tbl m 0) := by
  unfold Pipeline.Prefetch.Contents.atD tw
  rw [dif_pos (fun a => by match a with | ⟨0, _⟩ => exact k0_off1_inb i 0)]
  refine (congrArg (tbl m 0) ?_ : (tbl m 0) _ = (tbl m 0) ((Rect.unit (s := S128) (k0_off1 i) S1.size (k0_off1_inb i)).toLoadRect.idx (Shape.Idx.first (numel1_S1.symm ▸ Nat.one_pos))))
  funext a
  match a with
  | ⟨0, _⟩ => exact Fin.ext (show (k0_off1 i 0) = (k0_off1 i 0) + 1 * 0 by omega)
theorem atD1_eq_tw (c : Dev nD) (i : grid0.Coords) : (tbl m).atD 1 (k0_off1 i) = tw c i (M := tbM0_1) (tbl m 1) := by
  unfold Pipeline.Prefetch.Contents.atD tw
  rw [dif_pos (fun a => by match a with | ⟨0, _⟩ => exact k0_off1_inb i 0)]
  refine (congrArg (tbl m 1) ?_ : (tbl m 1) _ = (tbl m 1) ((Rect.unit (s := S128) (k0_off1 i) S1.size (k0_off1_inb i)).toLoadRect.idx (Shape.Idx.first (numel1_S1.symm ▸ Nat.one_pos))))
  funext a
  match a with
  | ⟨0, _⟩ => exact Fin.ext (show (k0_off1 i 0) = (k0_off1 i 0) + 1 * 0 by omega)

/-- The output window is idle at a point exactly where the body stores nothing: not the first index block, and the
    interval misses the row block. -/
theorem idle_iff (c : Dev nD) (t : Fin (cfgM m).N) :
    (cfgM m).idle 2 ((cfgM m).grid.coords t) = true ↔ (¬ t.val % 128 = 0 ∧ ¬ ovl c (grid0.coords t) (tbl m 0) (tbl m 1)) := by
  rw [idle_eq (adm m) (tbl m) rfl t, atD0_eq_tw m c, atD1_eq_tw m c]
  simp only [Bool.and_eq_true, Bool.not_eq_true', beq_eq_false_iff_ne, ne_eq]
  unfold ovl
  rw [hcond1 t]

/-- At k ≠ 0 the output window's staging buffer holds what position n - 1 left, whether or not that position stored. -/
theorem before0_2_aux (c : Dev nD) : ∀ (n : ℕ) (hn : n < (cfgM m).N), ¬ n % 128 = 0 → ∀ d,
    (dats m 0 c).before 2 ⟨n, hn⟩ d = accAt m c (n - 1) (Nat.lt_of_le_of_lt (Nat.sub_le _ _) hn)
  | 0, _, h0, _ => absurd (Nat.zero_mod _) h0
  | n + 1, hn, h0, d => by
    have hn' : n < (cfgM m).N := Nat.lt_of_succ_lt hn
    have hN : n + 1 < 3200 := lt_of_lt_of_eq hn (show (cfgM m).N = 3200 from N_0)
    rw [Dat.before_of_pos _ 2 ⟨n + 1, hn⟩ (Nat.succ_ne_zero n) (((cfgM m).win 2).fetch_out rfl _) d]
    have hfl : ((cfgM m).win 2).flush ⟨n + 1 - 1, Nat.lt_of_le_of_lt (Nat.sub_le _ _) hn⟩ = false :=
      Bool.eq_false_iff.mpr fun h => by have := (flush0_2 (adm m) _).mp h; dsimp only at this; omega
    rw [hfl, if_neg Bool.false_ne_true]
    show (dats m 0 c).left 2 ⟨n, hn'⟩ d = accAt m c n hn'
    by_cases hi : (cfgM m).idle 2 ((cfgM m).grid.coords ⟨n, hn'⟩) = true
    · rw [left_of_idle _ 2 ⟨n, hn'⟩ d hi]
      obtain ⟨hk, hov⟩ := (idle_iff m c ⟨n, hn'⟩).mp hi
      rw [before0_2_aux c n hn' hk d]
      exact ((accAt_B m c ⟨n, hn'⟩ hk).trans (stepB_neg _ _ _ _ _ _ _ hov)).symm
    · have hi' : (cfgM m).idle 2 ((cfgM m).grid.coords ⟨n, hn'⟩) = false := Bool.eq_false_iff.mpr hi
      rw [left_of_live _ 2 ⟨n, hn'⟩ d hi']
      unfold Dat.kept
      rw [Pipeline.fill_of_clip_none 2 _ (fun _ => rfl) d ((dats m 0 c).after 2 ⟨n, hn'⟩), Window.fill_cut]
      exact after0_2 m c ⟨n, hn'⟩

theorem before0_2 (c : Dev nD) (t : Fin (cfgM m).N) (h0 : ¬ t.val % 128 = 0) (d) :
    (dats m 0 c).before 2 t d = accAt m c (t.val - 1) (Nat.lt_of_le_of_lt (Nat.sub_le _ _) t.isLt) :=
  before0_2_aux m c t.val t.isLt h0 d

/-- The output window's buffer at the fold's value is what the obligation asks of it at every point: where the body
    stored, what it stored; where it did not (and the block is not written back), what it found. -/
theorem leaves2 (c : Dev nD) (t : Fin (cfgM m).N) :
    owns (c : Thread nD τ) (ms0_2 m t) fullShare (accAt m c t.val t.isLt) ⊢ ((dats m 0 c).leavesExact 2 t : sProp 𝕄) := by
  by_cases hi : (cfgM m).idle 2 ((cfgM m).grid.coords t) = true
  · by_cases hf : ((cfgM m).win 2).flush t = true
    · rw [leavesExact_of_flush _ 2 t hf, after0_2]; exact .rfl
    · have hf' : ((cfgM m).win 2).flush t = false := Bool.eq_false_iff.mpr hf
      rw [Dat.leavesExact_idle _ 2 t hi hf']
      obtain ⟨hk, hov⟩ := (idle_iff m c t).mp hi
      have e : ∀ d, (dats m 0 c).before 2 t d = accAt m c t.val t.isLt := fun d =>
        (before0_2 m c t hk d).trans ((accAt_B m c t hk).trans (stepB_neg _ _ _ _ _ _ _ hov)).symm
      simp only [e]
      iintro H; iexists ((dats m 0 c).after 2 t); iexact H
  · have hi' : (cfgM m).idle 2 ((cfgM m).grid.coords t) = false := Bool.eq_false_iff.mpr hi
    rw [leavesExact_of_live _ 2 t hi', after0_2]; exact .rfl

/-! ## The body obligation, at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ (dats m 0 c).leavesExact 2 t)

set_option maxHeartbeats 800000 in
/-- The body at any point: the inputs' buffers hold their blocks; at k = 0 the run with the reset applies, at k ≠ 0 the
    run over what the point before left; the tables and the invariant pass through. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = iprop(Pipeline.ΦA spec0 c ∗ Pipeline.ΦT pre0 (tbl m) c) from rfl, PhiT0_eq]
  by_cases h0 : t.val % 128 = 0
  · iintro ⟨⟨HΦ, ⟨HT0, HT1⟩⟩, Ho, ⟨%d0, H0⟩, ⟨%d1, H1⟩, ⟨%d2, H2⟩⟩
    iapply (runA c (grid0.coords t) _ (hs0_0 m t) _ (hs0_1 m t) _ (hs0_2 m t) ((hcond1 t).mpr h0) (iblk m c 0 t) (iblk m c 1 t) (tbl m 0) (tbl m 1) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    rw [← accAt_A m c t h0]
    iapply (leaves2 m c t); iexact H2
  · simp only [before0_2 m c t h0]
    iintro ⟨⟨HΦ, ⟨HT0, HT1⟩⟩, Ho, ⟨%d0, H0⟩, ⟨%d1, H1⟩, ⟨%d2, H2⟩⟩
    iapply (runB c (grid0.coords t) _ (hs0_0 m t) _ (hs0_1 m t) _ (hs0_2 m t) (fun h => h0 ((hcond1 t).mp h)) (iblk m c 0 t) (iblk m c 1 t) _ (tbl m 0) (tbl m 1) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    rw [← accAt_B m c t h0]
    iapply (leaves2 m c t); iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the write-backs leave and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs to the end, faults nowhere, and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.ScatterSpec.lean ====
/-
  The specification both programs are compared with: the scatter-add of the 131072 gradient rows into 50000
  output rows, out[r, d] = ∑ over the updates n whose index is r of grad[n, d], over the extended reals; the
  precondition's index range; and the position of element i of index block k in the sorted order.
-/
import Idealize.ShloMosaic.PureOps.Ideal
import Idealize.ShloMosaic.Lib.ValueIdx

noncomputable section

open scoped BigOperators

namespace Cert.Scatter

open Idealize.ShloMosaic Idealize.ShloMosaic.ValueIdx

abbrev SG : Shape := ⟨2, ![131072, 1024]⟩
abbrev SI : Shape := ⟨1, ![131072]⟩
abbrev SO : Shape := ⟨2, ![50000, 1024]⟩

/-- Output element (r, d) is the sum of the gradient's column d over the updates whose index is r. -/
def G (grad : SG.Idx → EReal) (idx : SI.Idx → BitVec 32) : SO.Idx → EReal :=
  fun o => ∑ n : Fin 131072, if (idx (ix1 n)).toNat = (o 0).val then grad (ix2 n (o 1)) else 0

/-- Every index names one of the 50000 output rows. -/
def InRange (idx : SI.Idx → BitVec 32) : Prop := ∀ n : Fin 131072, (idx (ix1 n)).toNat < 50000

/-- Element `i` of index block `k` (1024 to a block, 128 blocks) as a position among the 131072 updates. -/
def pos (k : Fin 128) (i : Fin 1024) : Fin 131072 := ⟨1024 * k.val + i.val, by omega⟩

end Cert.Scatter

end
-- ==== Proof.KernelIdealFinal.lean ====
/-
  From the blocks to the arrays, at any float instance: which elements of the sorted-index row and of the sorted
  gradient the two input windows' blocks hold at grid point (j, k) (index block k: positions 1024 k … 1024 k + 1023),
  the grid point's coordinates, and the result array after the run: the output window's block of row block j is
  written back once, at (j, 127), the 25 blocks tile the 50000 rows, so if what the fold holds at (j, 127) is block j of
  one function G of the arguments, the result array ends holding G.
-/
import proofs.«403225_j53833120088422_2_alg».proof.Proof.KernelIdealFrame
import proofs.«403225_j53833120088422_2_alg».proof.Proof.ScatterSpec
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Scatter

variable {F : FTy → Type} [FloatOps F]

variable (m : (ℓ : Loc nD τ sig) → Buf (Elt F) ℓ)

/-- Grid point (j, k) as a position of the grid. -/
def pt (j : Fin 25) (k : Fin 128) : Fin (cfgM m).N := ⟨128 * j.val + k.val, by
  have h : (cfgM m).N = 3200 := N_0
  rw [h]; have := j.isLt; have := k.isLt; omega⟩

theorem pt_val (j : Fin 25) (k : Fin 128) : (pt m j k).val = 128 * j.val + k.val := rfl

/-- Position t of the grid is the point (t / 128, t % 128). -/
theorem coords_facts : ∀ t : Fin grid0.N, ((grid0.coords t) 0).val = t.val / 128 ∧ ((grid0.coords t) 1).val = t.val % 128 :=
  (by decide +kernel : ∀ t : Fin grid0.N, ((grid0.coords t) 0).val = t.val / 128 ∧ ((grid0.coords t) 1).val = t.val % 128)

/-- The three index maps over the grid, whatever the tables hold: at position t the sorted-index window is at block
    (0, t % 128), the sorted-gradient window at block (t % 128, 0), the result window at block (t / 128, 0). -/
theorem idx_facts (a : (pcfg0 (F := F)).Adm) : ∀ t : Fin (cfg0 a).N,
    ((cfg0 a).win 0).index t (0 : Fin 2) = 0 ∧ ((cfg0 a).win 0).index t (1 : Fin 2) = t.val % 128
    ∧ ((cfg0 a).win 1).index t (0 : Fin 2) = t.val % 128 ∧ ((cfg0 a).win 1).index t (1 : Fin 2) = 0
    ∧ ((cfg0 a).win 2).index t (0 : Fin 2) = t.val / 128 ∧ ((cfg0 a).win 2).index t (1 : Fin 2) = 0 :=
  (by decide +kernel : ∀ t : Fin grid0.N,
    cc0_transform_0 (grid0.coords t) 0 = 0 ∧ cc0_transform_0 (grid0.coords t) 1 = t.val % 128
    ∧ cc0_transform_1 (grid0.coords t) 0 = t.val % 128 ∧ cc0_transform_1 (grid0.coords t) 1 = 0
    ∧ cc0_transform_2 (grid0.coords t) 0 = t.val / 128 ∧ cc0_transform_2 (grid0.coords t) 1 = 0)

/-- Its coordinates. -/
theorem coords_pt0 (j : Fin 25) (k : Fin 128) : ((grid0.coords (pt m j k)) 0).val = j.val := by
  have h := (coords_facts (pt m j k)).1
  rw [h, pt_val]; have := k.isLt; omega
theorem coords_pt1 (j : Fin 25) (k : Fin 128) : ((grid0.coords (pt m j k)) 1).val = k.val := by
  have h := (coords_facts (pt m j k)).2
  rw [h, pt_val]; have := k.isLt; omega

/-- The sorted-index block at (j, k) holds positions 1024 k … 1024 k + 1023 of the sorted-index row. -/
theorem blk0_apply (c : Dev nD) (j : Fin 25) (k : Fin 128) (q : Fin 1024) :
    (iblk m c 0 (pt m j k) : S1x1024.Idx → Elt F .i32) (ix2 (0 : Fin 1) q)
      = (V m c main_v22 : S1x131072.Idx → Elt F .i32) (ix2 (0 : Fin 1) (pos k q)) := by
  obtain ⟨e0, e1, -⟩ := idx_facts (adm m) (pt m j k)
  show V m c main_v22 ((((cfgM m).win 0).blk (pt m j k)).view.emb (ix2 (0 : Fin 1) q)) = V m c main_v22 (ix2 (0 : Fin 1) (pos k q))
  refine congrArg _ ?_
  funext a
  apply Fin.ext
  match a with
  | ⟨0, _⟩ =>
    show ((cfgM m).win 0).index (pt m j k) (0 : Fin 2) * 1 + 1 * 0 = 0
    rw [e0]
  | ⟨1, _⟩ =>
    show ((cfgM m).win 0).index (pt m j k) (1 : Fin 2) * 1024 + 1 * q.val = 1024 * k.val + q.val
    rw [e1, pt_val]; have := k.isLt; omega

/-- The sorted-gradient block at (j, k) holds rows 1024 k … 1024 k + 1023 of the sorted gradient. -/
theorem blk1_apply (c : Dev nD) (j : Fin 25) (k : Fin 128) (q : Fin 1024) (d : Fin 1024) :
    (iblk m c 1 (pt m j k) : S1024x1024.Idx → Elt F .bf16) (ix2 q d)
      = (V m c main_v16 : S131072x1024.Idx → Elt F .bf16) (ix2 (pos k q) d) := by
  obtain ⟨-, -, e2, e3, -⟩ := idx_facts (adm m) (pt m j k)
  show V m c main_v16 ((((cfgM m).win 1).blk (pt m j k)).view.emb (ix2 q d)) = V m c main_v16 (ix2 (pos k q) d)
  refine congrArg _ ?_
  funext a
  apply Fin.ext
  match a with
  | ⟨0, _⟩ =>
    show ((cfgM m).win 1).index (pt m j k) (0 : Fin 2) * 1024 + 1 * q.val = 1024 * k.val + q.val
    rw [e2, pt_val]; have := k.isLt; omega
  | ⟨1, _⟩ =>
    show ((cfgM m).win 1).index (pt m j k) (1 : Fin 2) * 1024 + 1 * d.val = d.val
    rw [e3]; omega

/-- The last index block of row block j is a point that writes back. -/
theorem flush_pt (j : Fin 25) : ((cfgM m).win 2).flush (pt m j ⟨127, by omega⟩) = true :=
  (flush0_2 (adm m) _).mpr (by rw [pt_val]; show (128 * j.val + 127) % 128 = 127; omega)

/-- A point that writes back is the last index block of its row block. -/
theorem eq_pt_of_flush (t : Fin (cfgM m).N) (hf : ((cfgM m).win 2).flush t = true) :
    ∃ j : Fin 25, t = pt m j ⟨127, by omega⟩ := by
  have hk := (flush0_2 (adm m) t).mp hf
  have hN : t.val < 3200 := lt_of_lt_of_eq t.isLt N_0
  refine ⟨⟨t.val / 128, by omega⟩, Fin.ext ?_⟩
  rw [pt_val]
  show t.val = 128 * (t.val / 128) + 127
  omega

/-- An index of the result array is in point t's block iff each coordinate is in the block's range on its axis. -/
theorem mem_blk (t : Fin (cfgM m).N) (i : S50000x1024.Idx) :
    i ∈ (((cfgM m).win 2).blk t).view.set ↔ ∀ a : Fin 2, ((cfgM m).win 2).index t a * S2000x1024.size a ≤ (i a).val
      ∧ (i a).val < ((cfgM m).win 2).index t a * S2000x1024.size a + S2000x1024.size a := by
  have h : (((cfgM m).win 2).blk t).view.set = (((cfgM m).win 2).rect t).set := View.set_slice_whole main_v23 _
  exact (Finset.ext_iff.mp h i).trans Rect.mem_set_unit

/-- What a point t = (j, 127) writes back is block j of G, when the fold's value there is. -/
theorem flushed_at (c : Dev nD) (G : S50000x1024.Idx → Elt F .f32) (t : Fin (cfgM m).N) (j : Fin 25)
    (ht : t.val = 128 * j.val + 127)
    (h : ∀ (r : Fin 2000) (d : Fin 1024), accAt m c t.val t.isLt (ix2 r d)
        = G (ix2 (⟨2000 * j.val + r.val, by have := j.isLt; have := r.isLt; omega⟩ : Fin 50000) d)) :
    (dats m 0 c).flushed 2 t = (((cfgM m).win 2).blk t).view.read (Elt F) G := by
  obtain ⟨-, -, -, -, e4, e5⟩ := idx_facts (adm m) t
  show ((cfgM m).win 2).cut (grid0.coords t) ((dats m 0 c).after 2 t) = _
  rw [after0_2]
  refine funext fun (y : S2000x1024.Idx) => ?_
  obtain ⟨r, d, rfl⟩ : ∃ (r : Fin 2000) (d : Fin 1024), y = ix2 r d := ⟨y 0, y 1, eq_ix2 y⟩
  show accAt m c t.val t.isLt (ix2 r d) = G ((((cfgM m).win 2).blk t).view.emb (ix2 r d))
  rw [h r d]
  refine congrArg G ?_
  funext a
  apply Fin.ext
  match a with
  | ⟨0, _⟩ =>
    show 2000 * j.val + r.val = ((cfgM m).win 2).index t (0 : Fin 2) * 2000 + 1 * r.val
    rw [e4, ht]; omega
  | ⟨1, _⟩ =>
    show d.val = ((cfgM m).win 2).index t (1 : Fin 2) * 1024 + 1 * d.val
    rw [e5]; omega

/-- The result array after the run, from the fold's value at the last index block of each row block. -/
theorem final_of_acc (c : Dev nD) (G : S50000x1024.Idx → Elt F .f32)
    (hacc : ∀ (j : Fin 25) (r : Fin 2000) (d : Fin 1024),
      accAt m c (pt m j ⟨127, by omega⟩).val (pt m j ⟨127, by omega⟩).isLt (ix2 r d)
        = G (ix2 (⟨2000 * j.val + r.val, by have := j.isLt; have := r.isLt; omega⟩ : Fin 50000) d)) :
    (dats m 0 c).arrAt 2 (cfgM m).N = G := by
  refine (dats m 0 c).arrAt_eq_of_cover 2 G (fun t hf => ?_) (fun (i : S50000x1024.Idx) => ?_)
  · obtain ⟨j, rfl⟩ := eq_pt_of_flush m t hf
    exact flushed_at m c G _ j rfl (hacc j)
  · have hi0 : (i 0).val < 50000 := (i 0).isLt
    have hi1 : (i 1).val < 1024 := (i 1).isLt
    refine ⟨pt m ⟨(i 0).val / 2000, by omega⟩ ⟨127, by omega⟩, flush_pt m _, ?_⟩
    obtain ⟨-, -, -, -, e4, e5⟩ := idx_facts (adm m) (pt m ⟨(i 0).val / 2000, by omega⟩ ⟨127, by omega⟩)
    refine (mem_blk m _ i).mpr fun a => ?_
    match a with
    | ⟨0, _⟩ =>
      show ((cfgM m).win 2).index (pt m ⟨(i 0).val / 2000, by omega⟩ ⟨127, by omega⟩) (0 : Fin 2) * 2000 ≤ (i 0).val
        ∧ (i 0).val < ((cfgM m).win 2).index (pt m ⟨(i 0).val / 2000, by omega⟩ ⟨127, by omega⟩) (0 : Fin 2) * 2000 + 2000
      rw [e4, pt_val]
      show (128 * ((i 0).val / 2000) + 127) / 128 * 2000 ≤ (i 0).val ∧ (i 0).val < (128 * ((i 0).val / 2000) + 127) / 128 * 2000 + 2000
      omega
    | ⟨1, _⟩ =>
      show ((cfgM m).win 2).index (pt m ⟨(i 0).val / 2000, by omega⟩ ⟨127, by omega⟩) (1 : Fin 2) * 1024 ≤ (i 1).val
        ∧ (i 1).val < ((cfgM m).win 2).index (pt m ⟨(i 0).val / 2000, by omega⟩ ⟨127, by omega⟩) (1 : Fin 2) * 1024 + 1024
      rw [e5]; omega

end Cert.KernelIdeal.Fr

end
-- ==== Proof.KernelIdealHostA.lean ====
/-
  The mathematics of the host operations before the region, over any rows of words (no program state): the order the
  sort's comparator puts on the keys; the clip to [0, 49999] and the sign normalisation of a position, which keep the
  words they are meant for; the stable argsort of a row as a bijection of its positions along which the row does not
  decrease, and the sorted row of positions read through it; the take of a row, and of the rows of a matrix, through a
  column of position words; the row read as one row of a matrix, and a column of the row cut into 128 blocks of 1024.
-/
import proofs.«403225_j53833120088422_2_alg».proof.Proof.Gen.KernelIdeal
import proofs.«403225_j53833120088422_2_alg».proof.Proof.ScatterSpec
import Idealize.ShloMosaic.Lib.SortFacts
import Idealize.ShloMosaic.Lib.StableHlo.Predicate
import Idealize.ShloMosaic.Lib.Pipeline.Value

noncomputable section

namespace Cert.KernelIdeal.Host

open Idealize.ShloMosaic Idealize.ShloMosaic.TcCoe Idealize.ShloMosaic.ValueIdx
open Idealize.ShloMosaic.StableHlo.Predicate
open Cert.KernelIdeal Cert.KernelIdeal.Gen Cert.Scatter

/-! ## Words -/

/-- The sort's comparator on (key, position) pairs is "the first key is below the second" in the signed order. -/
theorem cmp_beq (l r : BitVec 32 × BitVec 32) :
    (comparator_i32_i32_d0 l r == 1#1) = decide (l.1.toInt < r.1.toInt) := by
  unfold comparator_i32_i32_d0 IntOp.cmpi
  simp only [BitVec.slt]
  by_cases h : l.1.toInt < r.1.toInt <;> simp [h]

/-- A word in [0, 49999] is kept by the clip to [0, 49999]. -/
theorem clip_word (w : BitVec 32) (hw : w.toNat < 50000) : IntOp.minsi 49999#32 (IntOp.maxsi 0#32 w) = w := by
  have hti : w.toInt = w.toNat := toInt_eq_toNat_of_lt (by omega)
  have h0 : (0#32 : BitVec 32).toInt = 0 := by decide
  have h1 : (49999#32 : BitVec 32).toInt = 49999 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h1, decide_eq_true_eq]; omega

/-- A non-negative word is kept by the sign normalisation (which adds 131072 to a negative one). -/
theorem norm_word (w : BitVec 32) (hw : w.toNat < 2 ^ 31) :
    Scalar.select (IntOp.cmpi .slt w 0#32) (IntOp.addi w 131072#32) w = w := by
  unfold Scalar.select
  refine if_neg fun h => ?_
  have h' := (slt_iff_toNat hw (by decide)).mp h
  simp at h'

/-! ## The stable argsort of a row of words -/

/-- The stable sorting permutation of a row of `n` words carried with their positions: entry `k` is the position
    whose word the sort puts at `k`. -/
def sperm {n : Nat} (x : IVec ⟨1, ![n]⟩ 32) : Fin n → Fin n :=
  sortedFrom fun k k' => comparator_i32_i32_d0 (x (Shape.Idx.ofFin k), iotaInDim ⟨1, ![n]⟩ 32 0 (Shape.Idx.ofFin k))
    (x (Shape.Idx.ofFin k'), iotaInDim ⟨1, ![n]⟩ 32 0 (Shape.Idx.ofFin k')) == 1#1

theorem sperm_bij {n : Nat} (x : IVec ⟨1, ![n]⟩ 32) : Function.Bijective (sperm x) :=
  ⟨sortedFrom_injective _, sortedFrom_surjective _⟩

/-- Along the sorted order the words do not decrease, as signed integers. -/
theorem sperm_sorted {n : Nat} (x : IVec ⟨1, ![n]⟩ 32) (a b : Fin n) (hab : a ≤ b) :
    (x (Shape.Idx.ofFin (sperm x a))).toInt ≤ (x (Shape.Idx.ofFin (sperm x b))).toInt := by
  rcases lt_or_eq_of_le hab with h | h
  · have hn := sortedFrom_noInversion
      (fun k k' => comparator_i32_i32_d0 (x (Shape.Idx.ofFin k), iotaInDim ⟨1, ![n]⟩ 32 0 (Shape.Idx.ofFin k))
        (x (Shape.Idx.ofFin k'), iotaInDim ⟨1, ![n]⟩ 32 0 (Shape.Idx.ofFin k')) == 1#1)
      (fun k k' => comparator_i32_i32_d0 (x (Shape.Idx.ofFin k), iotaInDim ⟨1, ![n]⟩ 32 0 (Shape.Idx.ofFin k))
        (x (Shape.Idx.ofFin k'), iotaInDim ⟨1, ![n]⟩ 32 0 (Shape.Idx.ofFin k')) == 1#1)
      (fun p q hpq => by simp only [cmp_beq, decide_eq_true_eq, decide_eq_false_iff_not] at hpq ⊢; omega)
      (fun _ _ hpq => hpq)
      (fun p q r h₁ h₂ => by simp only [cmp_beq, decide_eq_false_iff_not] at h₁ h₂ ⊢; omega)
      a b h
    have hn' : (comparator_i32_i32_d0 (x (Shape.Idx.ofFin (sperm x b)), iotaInDim ⟨1, ![n]⟩ 32 0 (Shape.Idx.ofFin (sperm x b)))
        (x (Shape.Idx.ofFin (sperm x a)), iotaInDim ⟨1, ![n]⟩ 32 0 (Shape.Idx.ofFin (sperm x a))) == 1#1) = false := hn
    rw [cmp_beq, decide_eq_false_iff_not] at hn'
    exact not_lt.mp hn'
  · rw [h]

/-- The argsort read at a position: the sorted row of positions holds, at `p`, the word of `sperm x p`. -/
theorem sort2_snd {n : Nat} (x : IVec ⟨1, ![n]⟩ 32) (p : Fin n) :
    (Host.sort2 ⟨1, ![n]⟩ 0 comparator_i32_i32_d0 x (iotaInDim ⟨1, ![n]⟩ 32 0)).2 (Shape.Idx.ofFin p)
      = BitVec.ofNat 32 (sperm x p).val := by
  unfold Host.sort2 sperm
  simp
  rfl

/-- A one-entry list read at any valid position is its entry. -/
theorem getElem_of_eq_singleton {ι : Type} (l : List ι) (v : ι) (hl : l = [v]) (i : Nat) (hi : i < l.length) : l[i] = v := by
  subst hl
  have : i = 0 := by simpa using hi
  subst this
  rfl

/-- The take of rows: a gather from a table of rows whose start indices are the [n × 1] column of row positions, whose row
    axis is collapsed and start-indexed and whose column axis is the one offset axis, reads at row `p` the table's row at
    `p`'s start index, read signed and clamped into the table. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  unfold Host.gather
  refine congrArg x (funext fun a => Fin.ext ?_)
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ixP p)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = _
    rw [hsl]
    refine congrArg (fun z => min (idx z).toInt.toNat (N - 1)) (funext fun b => ?_)
    match b with
    | ⟨0, _⟩ =>
      unfold GatherDims.siIdx
      rw [dif_neg (by rw [hivd]; simp)]
      unfold GatherDims.siCoord
      apply Fin.ext
      simp only [Fin.val_cast]
      have hbd : d.batchDims = [0] := by show Shape.kept _ d.offsetDims = _; rw [hoff]; rfl
      rw [getElem_of_eq_singleton d.batchDims 0 hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg hm, dif_pos hk, Nat.zero_add, getElem_of_eq_singleton d.offsetDims 1 hoff]
    rfl

/-! The sorting permutation is fixed by its three facts (it is a bijection, it orders the row, the argsort reads through
it); nothing below looks inside it. -/
attribute [irreducible] sperm

/-- A rank-1 index from its coordinate, in the two spellings in use. -/
theorem ix1_eq_ofFin {n : Nat} (k : Fin n) : (ix1 k : (⟨1, ![n]⟩ : Shape).Idx) = Shape.Idx.ofFin k := by
  funext d; match d with | ⟨0, _⟩ => rfl

/-! ## The clip, the sign normalisation and the two takes, over any rows -/

/-- The clip of a row of words to [0, 49999]. -/
def clipT (x : IVec S131072 32) : IVec S131072 32 :=
  minsi (broadcastInDim S131072 ![] bcast_S_S131072 (constantI S_ 32 49999#32))
    (maxsi (broadcastInDim S131072 ![] bcast_S_S131072 (constantI S_ 32 0#32)) x)

/-- The sign normalisation of a row of positions: a negative word gets 131072 added. -/
def normT (y : IVec S131072 32) : IVec S131072 32 :=
  select (cmpi .slt y (broadcastInDim S131072 ![] bcast_S_S131072 (constantI S_ 32 0#32)))
    (addi y (broadcastInDim S131072 ![] bcast_S_S131072 (constantI S_ 32 131072#32))) y

/-- A row whose words all lie in [0, 49999] is its own clip. -/
theorem clipT_eq (x : IVec S131072 32) (hx : ∀ i, (x i).toNat < 50000) : clipT x = x := by
  funext i
  show IntOp.minsi 49999#32 (IntOp.maxsi 0#32 (x i)) = x i
  exact clip_word _ (hx i)

/-- The word of a position below 131072, read signed and clamped into [0, 131071], is the position. -/
theorem pos_word (k : Nat) (hk : k < 131072) : min (BitVec.ofNat 32 k).toInt.toNat (131072 - 1) = k := by
  rw [toInt_ofNat_small k (by omega)]
  simp only [Int.toNat_natCast]
  omega

/-- The column of start indices made of a row of position words: where the row holds the word of position `k`, the start
    index read signed and clamped is `k`. -/
theorem startcol (y : IVec S131072 32) (p k : Fin 131072) (hy : y (Shape.Idx.ofFin p) = BitVec.ofNat 32 k.val) :
    min ((broadcastInDim S131072x1 ![0] bcast_S131072_S131072x1_0 (normT y)) (ixP p)).toInt.toNat (131072 - 1) = k.val := by
  rw [bcast_col1]
  show min (Scalar.select (IntOp.cmpi .slt (y (Shape.Idx.ofFin p)) 0#32) (IntOp.addi (y (Shape.Idx.ofFin p)) 131072#32)
    (y (Shape.Idx.ofFin p))).toInt.toNat (131072 - 1) = k.val
  have hk := k.isLt
  rw [hy, norm_word _ (by rw [BitVec.toNat_ofNat]; omega), pos_word _ hk]

/-- The take of a row of words through such a column reads, at `p`, the row at `k`. -/
theorem take_row (x y : IVec S131072 32) (p k : Fin 131072) (hy : y (Shape.Idx.ofFin p) = BitVec.ofNat 32 k.val) :
    Host.gather gather_S131072_S131072x1_S131072_n_0_n_n_0_1_1 x
      (broadcastInDim S131072x1 ![0] bcast_S131072_S131072x1_0 (normT y)) (Shape.Idx.ofFin p) = x (Shape.Idx.ofFin k) :=
  (gather_take gather_S131072_S131072x1_S131072_n_0_n_n_0_1_1 rfl rfl rfl rfl x _ p (by decide)).trans
    (congrArg x (congrArg Shape.Idx.ofFin (Fin.ext (startcol y p k hy))))

/-- The take of the rows of a matrix through such a column reads, at row `p`, the matrix's row `k`. -/
theorem take_rows (x : S131072x1024.Idx → EReal) (y : IVec S131072 32) (p k : Fin 131072) (q : Fin 1024)
    (hy : y (Shape.Idx.ofFin p) = BitVec.ofNat 32 k.val) :
    Host.gather gather_S131072x1024_S131072x1_S131072x1024_1_0_n_n_0_1_11024 x
      (broadcastInDim S131072x1 ![0] bcast_S131072_S131072x1_0 (normT y)) (ix2 p q) = x (ix2 k q) :=
  (gather_rows gather_S131072x1024_S131072x1_S131072x1024_1_0_n_n_0_1_11024 rfl rfl rfl rfl rfl x _ p q (by decide)).trans
    (congrArg x (congrArg (fun r => ix2 r q) (Fin.ext (startcol y p k hy))))

/-! ## The reshapes and the two column slices, over any row -/

/-- The row as one row of a [1 × 131072] matrix. -/
theorem asRow_apply (x : IVec S131072 32) (n : Fin 131072) :
    shapeCast S1x131072 x shapeCasts_S131072_S1x131072 (ix2 (0 : Fin 1) n) = x (ix1 n) :=
  shapeCast_apply x shapeCasts_S131072_S1x131072 (ix2 (0 : Fin 1) n) (ix1 n) (by
    rw [Shape.rowMajor_val_one, Shape.rowMajor_val_two]; show n.val = 0 * 131072 + n.val; omega)

/-- Column `i` of the row cut into 128 blocks of 1024, as a vector of 128: entry `k` is the row at 1024·k + i. -/
theorem column_apply (x : IVec S131072 32) (i : Fin 1024) (hs : S128x1024.Slices ![0, i.val] S128x1) (k : Fin 128) :
    shapeCast S128 (extractStridedSlice S128x1 ![0, i.val] (shapeCast S128x1024 x shapeCasts_S131072_S128x1024) hs)
      shapeCasts_S128x1_S128 (ix1 k) = x (ix1 (pos k i)) := by
  refine (shapeCast_apply _ shapeCasts_S128x1_S128 (ix1 k) (ix2 k (0 : Fin 1)) (by
    rw [Shape.rowMajor_val_two, Shape.rowMajor_val_one]; show k.val * 1 + 0 = k.val; omega)).trans ?_
  refine (extractStridedSlice_apply _ _ hs (ix2 k (0 : Fin 1)) (ix2 k i) (by
    intro a
    match a with
    | ⟨0, _⟩ => show k.val = 0 + k.val; omega
    | ⟨1, _⟩ => show i.val = i.val + 0; omega)).trans ?_
  exact shapeCast_apply x shapeCasts_S131072_S128x1024 (ix2 k i) (ix1 (pos k i)) (by
    rw [Shape.rowMajor_val_one, Shape.rowMajor_val_two]; show 1024 * k.val + i.val = k.val * 1024 + i.val; omega)

end Cert.KernelIdeal.Host

end
-- ==== Proof.KernelIdealHost.lean ====
/-
  What the host operations before the region leave in the buffers the kernel reads, at the ideal instance: with every
  index in range the clip changes nothing; the stable argsort of the indices is a bijection `perm` of the 131072
  positions along which the indices are non-decreasing; the sorted-index row holds idx ∘ perm, the sorted gradient
  holds the rows of grad taken through perm (the change of float format is the identity on the extended reals), and the
  two tables hold the first and the last sorted index of each block of 1024.
-/
import proofs.«403225_j53833120088422_2_alg».proof.Proof.KernelIdealKit
import proofs.«403225_j53833120088422_2_alg».proof.Proof.ScatterSpec
import proofs.«403225_j53833120088422_2_alg».proof.Proof.KernelIdealHostA
import Idealize.ShloMosaic.Lib.SortFacts
import Idealize.ShloMosaic.Lib.StableHlo.Predicate
import Idealize.ShloMosaic.Lib.StableHlo.Run
import Idealize.ShloMosaic.Lib.Pipeline.Value

noncomputable section

namespace Cert.KernelIdeal.Host

open Idealize.ShloMosaic Idealize.ShloMosaic.TcCoe Idealize.ShloMosaic.ValueIdx Idealize.SL.Sem
open Idealize.ShloMosaic.StableHlo.Predicate
open Cert.KernelIdeal Cert.KernelIdeal.Gen Cert.KernelIdeal.Fr Cert.Scatter

/-! ## The buffers the region finds, each as the operations' term over the buffers before it -/

variable (m : (ℓ : Loc nD τ sig) → Buf (Elt Ideal) ℓ)

/-- The gradient and index arguments as launched, on core `c`. -/
abbrev gradA (c : Dev nD) : FVec Ideal S131072x1024 .f32 := m ((c : Thread nD τ).loc main_arg0)
abbrev idxA (c : Dev nD) : IVec S131072 32 := m ((c : Thread nD τ).loc main_arg1)

/-- The clipped indices. -/
theorem V_clipped (c : Dev nD) : (V m c main_v0 : S131072.Idx → BitVec 32) = clipT (idxA m c) := by
  unfold clipT
  dsimp only [V]
  simp only [hostOps0, hostOps0_1, hostOps0_2, hostOps0_3, List.flatten_cons, List.flatten_nil, List.append_nil, List.cons_append,
    List.nil_append]
  after_results_simp
  rfl

/-- The argsort of the clipped indices: the sorted row of positions. -/
theorem V_argsort (c : Dev nD) : (V m c main_v1 : S131072.Idx → BitVec 32)
    = (Host.sort2 S131072 0 comparator_i32_i32_d0 (V m c main_v0 : S131072.Idx → BitVec 32) (iotaInDim S131072 32 0)).2 := by
  dsimp only [V]
  simp only [hostOps0, hostOps0_1, hostOps0_2, hostOps0_3, List.flatten_cons, List.flatten_nil, List.append_nil, List.cons_append,
    List.nil_append]
  after_results_simp
  rfl

/-- The clipped indices taken through the argsort. -/
theorem V_taken (c : Dev nD) : (V m c main_v8 : S131072.Idx → BitVec 32)
    = Host.gather gather_S131072_S131072x1_S131072_n_0_n_n_0_1_1 (V m c main_v0 : S131072.Idx → BitVec 32)
        (broadcastInDim S131072x1 ![0] bcast_S131072_S131072x1_0 (normT (V m c main_v1 : S131072.Idx → BitVec 32))) := by
  unfold normT
  dsimp only [V]
  simp only [hostOps0, hostOps0_1, hostOps0_2, hostOps0_3, List.flatten_cons, List.flatten_nil, List.append_nil, List.cons_append,
    List.nil_append]
  after_results_simp

/-- The gradient's rows, in the narrower float format, taken through the argsort. -/
theorem V_takenRows (c : Dev nD) : (V m c main_v16 : S131072x1024.Idx → EReal)
    = Host.gather gather_S131072x1024_S131072x1_S131072x1024_1_0_n_n_0_1_11024
        (truncf .bf16 (gradA m c) bitsLt_bf16_f32 : FVec Ideal S131072x1024 .bf16)
        (broadcastInDim S131072x1 ![0] bcast_S131072_S131072x1_0 (normT (V m c main_v1 : S131072.Idx → BitVec 32))) := by
  unfold normT
  dsimp only [V]
  simp only [hostOps0, hostOps0_1, hostOps0_2, hostOps0_3, List.flatten_cons, List.flatten_nil, List.append_nil, List.cons_append,
    List.nil_append]
  after_results_simp

/-- The taken indices as one row of a matrix. -/
theorem V_asRow (c : Dev nD) : (V m c main_v22 : S1x131072.Idx → BitVec 32)
    = shapeCast S1x131072 (V m c main_v8 : S131072.Idx → BitVec 32) shapeCasts_S131072_S1x131072 := by
  dsimp only [V]
  simp only [hostOps0, hostOps0_1, hostOps0_2, hostOps0_3, List.flatten_cons, List.flatten_nil, List.append_nil, List.cons_append,
    List.nil_append]
  after_results_simp
  rfl

/-- The first column of the taken indices cut into 128 blocks of 1024. -/
theorem V_firstCol (c : Dev nD) : (V m c main_v19 : S128.Idx → BitVec 32)
    = shapeCast S128 (extractStridedSlice S128x1 ![0, 0]
        (shapeCast S128x1024 (V m c main_v8 : S131072.Idx → BitVec 32) shapeCasts_S131072_S128x1024) slices_S128x1024_S128x1_0_0)
        shapeCasts_S128x1_S128 := by
  dsimp only [V]
  simp only [hostOps0, hostOps0_1, hostOps0_2, hostOps0_3, List.flatten_cons, List.flatten_nil, List.append_nil, List.cons_append,
    List.nil_append]
  after_results_simp
  rfl

/-- The last column of the taken indices cut into 128 blocks of 1024. -/
theorem V_lastCol (c : Dev nD) : (V m c main_v21 : S128.Idx → BitVec 32)
    = shapeCast S128 (extractStridedSlice S128x1 ![0, 1023]
        (shapeCast S128x1024 (V m c main_v8 : S131072.Idx → BitVec 32) shapeCasts_S131072_S128x1024) slices_S128x1024_S128x1_0_1023)
        shapeCasts_S128x1_S128 := by
  dsimp only [V]
  simp only [hostOps0, hostOps0_1, hostOps0_2, hostOps0_3, List.flatten_cons, List.flatten_nil, List.append_nil, List.cons_append,
    List.nil_append]
  after_results_simp
  rfl

/-! ## The sorting permutation and what the region finds through it -/

/-- The sorting permutation of the (clipped) indices: position `n` of the sorted order holds update `perm n`. -/
def perm (c : Dev nD) : Fin 131072 → Fin 131072 := sperm (V m c main_v0 : S131072.Idx → BitVec 32)

theorem perm_bij (c : Dev nD) : Function.Bijective (perm m c) := sperm_bij _

/-- The sorted row of positions holds, at `n`, the word of `perm n`. -/
theorem argsort_apply (c : Dev nD) (n : Fin 131072) :
    (V m c main_v1 : S131072.Idx → BitVec 32) (Shape.Idx.ofFin n) = BitVec.ofNat 32 (perm m c n).val :=
  (congrFun (V_argsort m c) (Shape.Idx.ofFin n)).trans (sort2_snd _ n)

/-- The taken indices are the clipped indices along the permutation. -/
theorem taken_apply (c : Dev nD) (n : Fin 131072) :
    (V m c main_v8 : S131072.Idx → BitVec 32) (ix1 n) = (V m c main_v0 : S131072.Idx → BitVec 32) (ix1 (perm m c n)) := by
  rw [ix1_eq_ofFin, ix1_eq_ofFin]
  exact (congrFun (V_taken m c) (Shape.Idx.ofFin n)).trans (take_row _ _ n (perm m c n) (argsort_apply m c n))

/-- With every index in range the clip changes nothing. -/
theorem clipped_eq (c : Dev nD) (h : InRange (idxA m c)) : (V m c main_v0 : S131072.Idx → BitVec 32) = idxA m c :=
  (V_clipped m c).trans (clipT_eq _ fun i => by rw [eq_ix1 i]; exact h (i 0))

attribute [irreducible] perm

/-- Along the sorted order the indices do not decrease. -/
theorem perm_mono (c : Dev nD) (h : InRange (idxA m c)) (a b : Fin 131072) (hab : a ≤ b) :
    (idxA m c (ix1 (perm m c a))).toNat ≤ (idxA m c (ix1 (perm m c b))).toNat := by
  have hs : ((V m c main_v0 : S131072.Idx → BitVec 32) (Shape.Idx.ofFin (perm m c a))).toInt
      ≤ ((V m c main_v0 : S131072.Idx → BitVec 32) (Shape.Idx.ofFin (perm m c b))).toInt := by
    unfold perm; exact sperm_sorted _ a b hab
  rw [clipped_eq m c h, ← ix1_eq_ofFin, ← ix1_eq_ofFin] at hs
  have ha := h (perm m c a)
  have hb := h (perm m c b)
  rw [toInt_eq_toNat_of_lt (by omega), toInt_eq_toNat_of_lt (by omega)] at hs
  exact_mod_cast hs

/-- The sorted-index row the region finds. -/
theorem V_sidx (c : Dev nD) (h : InRange (idxA m c)) (n : Fin 131072) :
    (V m c main_v22 : S1x131072.Idx → BitVec 32) (ix2 (0 : Fin 1) n) = idxA m c (ix1 (perm m c n)) :=
  (congrFun (V_asRow m c) _).trans ((asRow_apply _ n).trans ((taken_apply m c n).trans (congrFun (clipped_eq m c h) _)))

/-- The sorted gradient the region finds. -/
theorem V_sgrad (c : Dev nD) (h : InRange (idxA m c)) (n : Fin 131072) (d : Fin 1024) :
    (V m c main_v16 : S131072x1024.Idx → EReal) (ix2 n d) = gradA m c (ix2 (perm m c n) d) :=
  (congrFun (V_takenRows m c) (ix2 n d)).trans (take_rows _ _ n (perm m c n) d (argsort_apply m c n))

/-- The first sorted index of each block. -/
theorem tbl_lo (h : InRange (idxA m 0)) (k : Fin 128) :
    (tbl m 0 : S128.Idx → BitVec 32) (ix1 k) = idxA m 0 (ix1 (perm m 0 (pos k ⟨0, by omega⟩))) := by
  show (V m 0 main_v19 : S128.Idx → BitVec 32) (ix1 k) = _
  exact (congrFun (V_firstCol m 0) _).trans ((column_apply _ ⟨0, by omega⟩ slices_S128x1024_S128x1_0_0 k).trans
    ((taken_apply m 0 _).trans (congrFun (clipped_eq m 0 h) _)))

/-- The last sorted index of each block. -/
theorem tbl_hi (h : InRange (idxA m 0)) (k : Fin 128) :
    (tbl m 1 : S128.Idx → BitVec 32) (ix1 k) = idxA m 0 (ix1 (perm m 0 (pos k ⟨1023, by omega⟩))) := by
  show (V m 0 main_v21 : S128.Idx → BitVec 32) (ix1 k) = _
  exact (congrFun (V_lastCol m 0) _).trans ((column_apply _ ⟨1023, by omega⟩ slices_S128x1024_S128x1_0_1023 k).trans
    ((taken_apply m 0 _).trans (congrFun (clipped_eq m 0 h) _)))

end Cert.KernelIdeal.Host

end
-- ==== Proof.KernelIdealPayload.lean ====
/-
  The body's two payloads read at an element, at the ideal instance, and its skip test read as arithmetic. The reset
  payload is zero everywhere. The accumulate payload at row r, column d of the output block is what the block held
  plus the product of row r of the one-hot matrix (entry q is 1 where the sorted index q of the index block equals the
  global row 2000 j + r, else 0) with column d of the gradient block: the change of float format is the identity on
  the extended reals, the conversion of the 0/1 words gives 0 and 1, and the matrix product into a zero accumulator is
  the plain sum over the 1024 contracted positions. The skip test holds exactly when the interval [lo, hi] of the
  block's first and last sorted index meets the 2000 rows of row block j.
-/
import proofs.«403225_j53833120088422_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-- The reset payload is zero. -/
theorem pay1_apply (y : S2000x1024.Idx) : k0_pay1 (F := Ideal) y = (0 : EReal) := by
  show Ideal.ofBits .f32 0x00000000#32 = 0
  exact Ideal.ofBits_zero_f32

variable {α : Type}

/-- A `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices: row × contracted position, contracted position × column -/

theorem lhs_dot_0 (j : S2000x1024.Idx) (k : dot_S2000x1024_S1024x1024_S2000x1024_1_0_0_1_n_n.contr.Idx) :
    (dot_S2000x1024_S1024x1024_S2000x1024_1_0_0_1_n_n.lhsIdx j k 0 : ℕ) = j 0 := by
  simp [DotDims.lhsIdx, dot_S2000x1024_S1024x1024_S2000x1024_1_0_0_1_n_n]; rfl
theorem lhs_dot_1 (j : S2000x1024.Idx) (k : dot_S2000x1024_S1024x1024_S2000x1024_1_0_0_1_n_n.contr.Idx) :
    (dot_S2000x1024_S1024x1024_S2000x1024_1_0_0_1_n_n.lhsIdx j k 1 : ℕ) = k ⟨0, by decide⟩ := by
  simp [DotDims.lhsIdx, dot_S2000x1024_S1024x1024_S2000x1024_1_0_0_1_n_n]; rfl
theorem rhs_dot_0 (j : S2000x1024.Idx) (k : dot_S2000x1024_S1024x1024_S2000x1024_1_0_0_1_n_n.contr.Idx) :
    (dot_S2000x1024_S1024x1024_S2000x1024_1_0_0_1_n_n.rhsIdx j k 0 : ℕ) = k ⟨0, by decide⟩ := by
  simp [DotDims.rhsIdx, dot_S2000x1024_S1024x1024_S2000x1024_1_0_0_1_n_n]; rfl
theorem rhs_dot_1 (j : S2000x1024.Idx) (k : dot_S2000x1024_S1024x1024_S2000x1024_1_0_0_1_n_n.contr.Idx) :
    (dot_S2000x1024_S1024x1024_S2000x1024_1_0_0_1_n_n.rhsIdx j k 1 : ℕ) = j 1 := by
  simp [DotDims.rhsIdx, dot_S2000x1024_S1024x1024_S2000x1024_1_0_0_1_n_n]; rfl

/-- The [2000, 1024] × [1024, 1024] product into a zero accumulator, read at (r, d), is the sum over the 1024 contracted
    positions q of the products of the entries (r, q) and (q, d). -/
theorem matmul_dot_apply (A : FVec Ideal S2000x1024 .bf16) (B : FVec Ideal S1024x1024 .bf16) (r : Fin 2000) (d : Fin 1024) :
    matmul dot_S2000x1024_S1024x1024_S2000x1024_1_0_0_1_n_n none A B (constant (F := Ideal) S2000x1024 .f32 0x00000000#32) (ix2 r d)
      = ∑ q : Fin 1024, A (ix2 r q) * B (ix2 q d) := by
  refine (Ideal.matmul_constant_zero_apply dot_S2000x1024_S1024x1024_S2000x1024_1_0_0_1_n_n none A B (ix2 r d)).trans ?_
  rw [← Equiv.sum_comp (contrEquiv1 dot_S2000x1024_S1024x1024_S2000x1024_1_0_0_1_n_n 1024 rfl rfl).symm]
  refine Finset.sum_congr rfl fun q _ => ?_
  have c2 := contrEquiv1_symm_val dot_S2000x1024_S1024x1024_S2000x1024_1_0_0_1_n_n 1024 rfl rfl q
  have l2 : dot_S2000x1024_S1024x1024_S2000x1024_1_0_0_1_n_n.lhsIdx (ix2 r d) ((contrEquiv1 _ 1024 rfl rfl).symm q) = ix2 r q := by
    funext ax; apply Fin.ext
    match ax with
    | ⟨0, _⟩ => exact lhs_dot_0 _ _
    | ⟨1, _⟩ => exact (lhs_dot_1 _ _).trans c2
  have r2 : dot_S2000x1024_S1024x1024_S2000x1024_1_0_0_1_n_n.rhsIdx (ix2 r d) ((contrEquiv1 _ 1024 rfl rfl).symm q) = ix2 q d := by
    funext ax; apply Fin.ext
    match ax with
    | ⟨0, _⟩ => exact (rhs_dot_0 _ _).trans c2
    | ⟨1, _⟩ => exact rhs_dot_1 _ _
  rw [l2, r2]

/-- The 0/1 word of an equality test, widened to 32 bits and converted, is 1 where the two words are equal and 0 where not. -/
theorem onehot_word (a b : BitVec 32) :
    ((((IntOp.cmpi .eq a b).setWidth 32).toInt : ℝ) : EReal) = if a = b then 1 else 0 := by
  by_cases h : a = b
  · subst h; simp [IntOp.cmpi]
  · have hb : (a == b) = false := beq_eq_false_iff_ne.mpr h
    rw [if_neg h]
    show ((((BitVec.ofBool (a == b)).setWidth 32).toInt : ℝ) : EReal) = 0
    rw [hb]; simp

/-- The word r + j · 2000, for r < 2000 and j < 25, is below 2^32, so it equals a word exactly when that word's value is
    2000 j + r. -/
theorem row_word_eq (j r : ℕ) (hj : j < 25) (hr : r < 2000) (b : BitVec 32) :
    BitVec.ofNat 32 r + BitVec.ofNat 32 j * 2000#32 = b ↔ b.toNat = 2000 * j + r := by
  have e : (BitVec.ofNat 32 r + BitVec.ofNat 32 j * 2000#32).toNat = 2000 * j + r := by
    rw [BitVec.toNat_add, BitVec.toNat_mul, BitVec.toNat_ofNat, BitVec.toNat_ofNat, BitVec.toNat_ofNat]; omega
  constructor
  · rintro rfl; exact e
  · intro h; exact BitVec.eq_of_toNat_eq (e.trans h.symm)

/-- The one-hot matrix at (r, q): 1 where the sorted index at position q of the index block is the global row
    2000 j + r, else 0. -/
theorem onehot_apply (i : grid0.Coords) (x0 : Vec Ideal S1x1024 .i32) (r : Fin 2000) (q : Fin 1024) :
    (truncf .bf16 (sitofp (F := Ideal) .f32 (extui 32 (cmpi .eq
        (broadcastTo S2000x1024 (addi (iota .tc S2000x1 32 [0] iota_S2000x1_d0_w32)
          (broadcast S2000x1 (Scalar.muli (BitVec.ofNat 32 (i 0).val) 2000#32))) broadcasts_S2000x1_S2000x1024)
        (broadcastTo S2000x1024 (shapeCast S1x1024 x0 shapeCasts_S1x1024_S1x1024) broadcasts_S1x1024_S2000x1024))
        natLt_1_32)) bitsLt_bf16_f32 : FVec Ideal S2000x1024 .bf16) (ix2 r q)
      = if (x0 (ix2 (0 : Fin 1) q)).toNat = 2000 * (i 0).val + r.val then (1 : EReal) else 0 := by
  have hj : (i 0).val < 25 := (i 0).isLt
  have e19 : broadcastTo S2000x1024 (addi (iota .tc S2000x1 32 [0] iota_S2000x1_d0_w32)
          (broadcast S2000x1 (Scalar.muli (BitVec.ofNat 32 (i 0).val) 2000#32))) broadcasts_S2000x1_S2000x1024 (ix2 r q)
        = BitVec.ofNat 32 r.val + BitVec.ofNat 32 (i 0).val * 2000#32 := by
    refine (broadcastTo_a1_ab_apply _ _ r q).trans ?_
    show iota .tc S2000x1 32 [0] iota_S2000x1_d0_w32 (ix2 r (0 : Fin 1)) + _ = _
    rw [iota_single_apply]
    rfl
  have e20 : broadcastTo S2000x1024 (shapeCast S1x1024 x0 shapeCasts_S1x1024_S1x1024) broadcasts_S1x1024_S2000x1024 (ix2 r q)
        = x0 (ix2 (0 : Fin 1) q) := by
    refine (broadcastTo_1b_ab_apply _ _ r q).trans ?_
    rw [shapeCast_self]
  show ((((IntOp.cmpi .eq
        (broadcastTo S2000x1024 (addi (iota .tc S2000x1 32 [0] iota_S2000x1_d0_w32)
          (broadcast S2000x1 (Scalar.muli (BitVec.ofNat 32 (i 0).val) 2000#32))) broadcasts_S2000x1_S2000x1024 (ix2 r q))
        (broadcastTo S2000x1024 (shapeCast S1x1024 x0 shapeCasts_S1x1024_S1x1024) broadcasts_S1x1024_S2000x1024 (ix2 r q))).setWidth 32).toInt : ℝ) : EReal) = _
  rw [e19, e20, onehot_word]
  exact if_congr (row_word_eq _ _ hj r.isLt _) rfl rfl

/-- The accumulate payload at an element. -/
theorem pay2_apply (i : grid0.Coords) (x0 : Vec Ideal S1x1024 .i32) (x1 : Vec Ideal S1024x1024 .bf16) (xo : Vec Ideal S2000x1024 .f32)
    (r : Fin 2000) (d : Fin 1024) :
    k0_pay2 (F := Ideal) i x0 x1 xo (ix2 r d)
      = (xo (ix2 r d) : EReal) + ∑ q : Fin 1024,
          (if (x0 (ix2 (0 : Fin 1) q)).toNat = 2000 * (i 0).val + r.val then (1 : EReal) else 0) * (x1 (ix2 q d) : EReal) := by
  unfold k0_pay2
  refine (addf_apply _ _ _).trans ?_
  refine congrArg₂ (· + ·) ?_ ?_
  · rw [shapeCast_self]
  · refine (matmul_dot_apply _ _ r d).trans ?_
    refine Finset.sum_congr rfl fun q _ => ?_
    refine congrArg₂ (· * ·) (onehot_apply i x0 r q) ?_
    rw [shapeCast_self]

/-- The skip test, for table words that name output rows. -/
theorem cond2_iff (i : grid0.Coords) (lo hi : BitVec 32) (hlo : lo.toNat < 50000) (hhi : hi.toNat < 50000) :
    k0_cond2 i lo hi = 1#1 ↔ (2000 * (i 0).val ≤ hi.toNat ∧ lo.toNat ≤ 2000 * (i 0).val + 1999) := by
  have hj : (i 0).val < 25 := (i 0).isLt
  unfold k0_cond2
  simp only [Scalar.cmpi, IntOp.cmpi, Scalar.muli, IntOp.muli, Scalar.addi, IntOp.addi, Scalar.andi, IntOp.andi, Scalar.extui]
  generalize (i 0).val = j at hj ⊢
  have h7 : (BitVec.ofNat 32 j * 2000#32).toNat = 2000 * j := by
    rw [BitVec.toNat_mul, BitVec.toNat_ofNat, BitVec.toNat_ofNat]; omega
  have h8 : (BitVec.ofNat 32 j * 2000#32 + 1999#32).toNat = 2000 * j + 1999 := by
    rw [BitVec.toNat_add, h7, BitVec.toNat_ofNat]; omega
  have e1 : (BitVec.ofNat 32 j * 2000#32).sle hi = decide (2000 * j ≤ hi.toNat) := by
    rw [BitVec.sle_eq_decide, BitVec.toInt_eq_toNat_of_lt (by omega), BitVec.toInt_eq_toNat_of_lt (by omega), h7]
    exact decide_eq_decide.mpr (by omega)
  have e2 : lo.sle (BitVec.ofNat 32 j * 2000#32 + 1999#32) = decide (lo.toNat ≤ 2000 * j + 1999) := by
    rw [BitVec.sle_eq_decide, BitVec.toInt_eq_toNat_of_lt (by omega), BitVec.toInt_eq_toNat_of_lt (by omega), h8]
    exact decide_eq_decide.mpr (by omega)
  rw [e1, e2]
  by_cases p1 : 2000 * j ≤ hi.toNat <;> by_cases p2 : lo.toNat ≤ 2000 * j + 1999 <;> simp [p1, p2]

end Cert.KernelIdeal.Pay

end
-- ==== Proof.ScatterMath.lean ====
/-
  The arithmetic of the sorted one-hot scatter: when the updates are taken in an order that sorts their keys, cut
  into 128 consecutive blocks of 1024, and a block is skipped whenever the interval from its first key to its last
  misses the 2000 rows of row block j, the sum over the kept blocks of the one-hot products is the sum over all
  updates whose key is the row.
-/
import proofs.«403225_j53833120088422_2_alg».proof.Proof.ScatterSpec
import Mathlib.Algebra.BigOperators.Fin
import Mathlib.Algebra.BigOperators.Ring.Finset

noncomputable section

open scoped BigOperators

namespace Cert.Scatter

open Idealize.ShloMosaic Idealize.ShloMosaic.ValueIdx

/-- Multiplying by a one-hot coefficient selects the value or gives zero; this holds for every extended real,
    the infinities included, because `1 * x = x` and `0 * x = 0` there. -/
theorem onehot_mul (c : Prop) [Decidable c] (x : EReal) :
    (if c then (1 : EReal) else 0) * x = if c then x else 0 := by
  split
  · exact one_mul x
  · exact zero_mul x

/-- Writing a position as 1024 * (block) + (offset) is a bijection between the pairs (block, offset) and the
    131072 positions: the inverse takes quotient and remainder by 1024. -/
def posEquiv : Fin 128 × Fin 1024 ≃ Fin 131072 where
  toFun p := pos p.1 p.2
  invFun n := (⟨n.val / 1024, by omega⟩, ⟨n.val % 1024, by omega⟩)
  left_inv := by
    rintro ⟨k, i⟩
    apply Prod.ext
    · apply Fin.ext
      show (1024 * k.val + i.val) / 1024 = k.val
      omega
    · apply Fin.ext
      show (1024 * k.val + i.val) % 1024 = i.val
      omega
  right_inv := by
    intro n
    apply Fin.ext
    show 1024 * (n.val / 1024) + n.val % 1024 = n.val
    omega

/-- Summing block by block, and inside each block offset by offset, is summing over all positions. -/
theorem sum_pos (f : Fin 131072 → EReal) :
    (∑ k : Fin 128, ∑ i : Fin 1024, f (pos k i)) = ∑ n : Fin 131072, f n := by
  rw [← Fintype.sum_prod_type' (fun k i => f (pos k i))]
  exact Equiv.sum_comp posEquiv f

/-- A block whose key interval misses the row block contributes nothing, a kept block contributes its matches, and
    re-indexing by the sorting bijection gives the sum over all updates with that key. -/
theorem sorted_blocks_sum (key : Fin 131072 → ℕ) (σ : Fin 131072 → Fin 131072) (hσ : Function.Bijective σ)
    (hmono : ∀ a b : Fin 131072, a ≤ b → key (σ a) ≤ key (σ b))
    (g : Fin 131072 → EReal) (j : Fin 25) (r : Fin 2000) :
    (∑ k : Fin 128,
        if 2000 * j.val ≤ key (σ (pos k ⟨1023, by omega⟩)) ∧ key (σ (pos k ⟨0, by omega⟩)) ≤ 2000 * j.val + 1999 then
          ∑ i : Fin 1024, (if key (σ (pos k i)) = 2000 * j.val + r.val then (1 : EReal) else 0) * g (σ (pos k i))
        else 0)
      = ∑ n : Fin 131072, if key n = 2000 * j.val + r.val then g n else 0 := by
  -- Each block, kept or skipped, contributes exactly the values of its positions whose key is the row.
  have hblock : ∀ k : Fin 128,
      (if 2000 * j.val ≤ key (σ (pos k ⟨1023, by omega⟩)) ∧
            key (σ (pos k ⟨0, by omega⟩)) ≤ 2000 * j.val + 1999 then
          ∑ i : Fin 1024, (if key (σ (pos k i)) = 2000 * j.val + r.val then (1 : EReal) else 0) * g (σ (pos k i))
        else 0)
        = ∑ i : Fin 1024, if key (σ (pos k i)) = 2000 * j.val + r.val then g (σ (pos k i)) else 0 := by
    intro k
    split
    · exact Finset.sum_congr rfl (fun i _ => onehot_mul _ _)
    · rename_i h
      symm
      apply Finset.sum_eq_zero
      intro i _
      rw [if_neg]
      intro heq
      apply h
      -- The keys are sorted, so the key at any offset lies between the block's first and last key.
      have hlast := hmono (pos k i) (pos k ⟨1023, by omega⟩) (by
        show 1024 * k.val + i.val ≤ 1024 * k.val + 1023
        omega)
      have hfirst := hmono (pos k ⟨0, by omega⟩) (pos k i) (by
        show 1024 * k.val + 0 ≤ 1024 * k.val + i.val
        omega)
      have hr := r.isLt
      constructor <;> omega
  rw [Finset.sum_congr rfl (fun k _ => hblock k)]
  rw [sum_pos (fun n => if key (σ n) = 2000 * j.val + r.val then g (σ n) else 0)]
  exact Function.Bijective.sum_comp hσ (fun n => if key n = 2000 * j.val + r.val then g n else 0)

end Cert.Scatter

end
-- ==== Proof.KernelIdealValue.lean ====
/-
  The value of the sorted one-hot scatter kernel at the ideal instance. One step of the fold adds, to what the output
  block held at (r, d), the sum over the 1024 positions q of index block k of [sorted index q = 2000 j + r] times
  the sorted gradient at (q, d) when the block's key interval meets row block j, and nothing when it misses it; so
  the block at (j, 127) is the sum of those terms over the 128 index blocks, which — the keys being sorted along the
  permutation, and the permutation a bijection — is the sum of grad[n, d] over the updates n whose index is
  2000 j + r: the scatter-add. The 25 blocks tile the result array.
-/
import proofs.«403225_j53833120088422_2_alg».proof.Proof.KernelIdealFinal
import proofs.«403225_j53833120088422_2_alg».proof.Proof.KernelIdealHost
import proofs.«403225_j53833120088422_2_alg».proof.Proof.KernelIdealPayload
import proofs.«403225_j53833120088422_2_alg».proof.Proof.ScatterMath

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.KernelIdeal.Host Cert.KernelIdeal.Pay Cert.Scatter

variable (m : (ℓ : Loc nD τ sig) → Buf (Elt Ideal) ℓ)

/-- The row an update goes to. -/
def key (n : Fin 131072) : ℕ := (idxA m 0 (ix1 n)).toNat

/-- Index block k's contribution to output element (2000 j + r, d): its matches, when its key interval meets row block j. -/
def term (j : Fin 25) (r : Fin 2000) (d : Fin 1024) (k : Fin 128) : EReal :=
  if 2000 * j.val ≤ key m (perm m 0 (pos k ⟨1023, by omega⟩)) ∧ key m (perm m 0 (pos k ⟨0, by omega⟩)) ≤ 2000 * j.val + 1999 then
    ∑ i : Fin 1024, (if key m (perm m 0 (pos k i)) = 2000 * j.val + r.val then (1 : EReal) else 0) * (fun n => gradA m 0 (ix2 n d)) (perm m 0 (pos k i))
  else 0

/-- The word the body loads from a table at index block k is the table's entry k. -/
theorem tw_eq0 (i : grid0.Coords) :
    tw (F := Ideal) (0 : Dev nD) i (M := tbM0_0) (tbl m 0) = (tbl m 0 : S128.Idx → BitVec 32) (ix1 (⟨(i 1).val, (i 1).isLt⟩ : Fin 128)) := by
  unfold tw
  refine (congrArg (tbl m 0 : S128.Idx → BitVec 32) ?_ : (tbl m 0 : S128.Idx → BitVec 32) _ = (tbl m 0 : S128.Idx → BitVec 32) _)
  funext a
  match a with
  | ⟨0, _⟩ => exact Fin.ext (show k0_off1 i 0 + 1 * 0 = (i 1).val by rw [k0_off1_eq]; rfl)
theorem tw_eq1 (i : grid0.Coords) :
    tw (F := Ideal) (0 : Dev nD) i (M := tbM0_1) (tbl m 1) = (tbl m 1 : S128.Idx → BitVec 32) (ix1 (⟨(i 1).val, (i 1).isLt⟩ : Fin 128)) := by
  unfold tw
  refine (congrArg (tbl m 1 : S128.Idx → BitVec 32) ?_ : (tbl m 1 : S128.Idx → BitVec 32) _ = (tbl m 1 : S128.Idx → BitVec 32) _)
  funext a
  match a with
  | ⟨0, _⟩ => exact Fin.ext (show k0_off1 i 0 + 1 * 0 = (i 1).val by rw [k0_off1_eq]; rfl)

/-- One step of the fold at an element, for blocks that hold the sorted indices and the sorted gradient of index
    block k, at a grid point whose coordinates are (j, k). -/
theorem step_apply (h : InRange (idxA m 0)) (j : Fin 25) (k : Fin 128) (i : grid0.Coords)
    (hi0 : (i 0).val = j.val) (hi1 : (⟨(i 1).val, (i 1).isLt⟩ : Fin 128) = k)
    (x0 : Vec Ideal S1x1024 .i32) (x1 : Vec Ideal S1024x1024 .bf16) (xo : Vec Ideal S2000x1024 .f32)
    (hx0 : ∀ q : Fin 1024, x0 (ix2 (0 : Fin 1) q) = idxA m 0 (ix1 (perm m 0 (pos k q))))
    (hx1 : ∀ (q : Fin 1024) (d : Fin 1024), (x1 (ix2 q d) : EReal) = gradA m 0 (ix2 (perm m 0 (pos k q)) d))
    (r : Fin 2000) (d : Fin 1024) :
    stepB (0 : Dev nD) i x0 x1 xo (tbl m 0) (tbl m 1) (ix2 r d) = (xo (ix2 r d) : EReal) + term m j r d k := by
  have hlo : tw (F := Ideal) (0 : Dev nD) i (M := tbM0_0) (tbl m 0) = idxA m 0 (ix1 (perm m 0 (pos k ⟨0, by omega⟩))) := by
    rw [tw_eq0, hi1]; exact tbl_lo m h k
  have hhi : tw (F := Ideal) (0 : Dev nD) i (M := tbM0_1) (tbl m 1) = idxA m 0 (ix1 (perm m 0 (pos k ⟨1023, by omega⟩))) := by
    rw [tw_eq1, hi1]; exact tbl_hi m h k
  have hov : ovl (0 : Dev nD) i (tbl m 0) (tbl m 1)
      ↔ (2000 * j.val ≤ key m (perm m 0 (pos k ⟨1023, by omega⟩)) ∧ key m (perm m 0 (pos k ⟨0, by omega⟩)) ≤ 2000 * j.val + 1999) := by
    unfold ovl
    rw [hlo, hhi, cond2_iff _ _ _ (h _) (h _), hi0]
    rfl
  by_cases ho : ovl (0 : Dev nD) i (tbl m 0) (tbl m 1)
  · rw [stepB_pos _ _ _ _ _ _ _ ho, pay2_apply, hi0]
    unfold term
    rw [if_pos (hov.mp ho)]
    refine congrArg _ (Finset.sum_congr rfl fun q _ => ?_)
    rw [hx0 q, hx1 q d]
    rfl
  · rw [stepB_neg _ _ _ _ _ _ _ ho]
    unfold term
    rw [if_neg (fun hh => ho (hov.mpr hh)), add_zero]

/-- The same at grid point (j, k), on the two input windows' blocks there. -/
theorem step_pt (h : InRange (idxA m 0)) (j : Fin 25) (k : Fin 128) (xo : Vec Ideal S2000x1024 .f32) (r : Fin 2000) (d : Fin 1024) :
    stepB (0 : Dev nD) (grid0.coords (pt m j k)) (iblk m 0 0 (pt m j k)) (iblk m 0 1 (pt m j k)) xo (tbl m 0) (tbl m 1) (ix2 r d)
      = (xo (ix2 r d) : EReal) + term m j r d k :=
  step_apply m h j k (grid0.coords (pt m j k)) (coords_pt0 m j k) (Fin.ext (coords_pt1 m j k))
    (iblk m 0 0 (pt m j k)) (iblk m 0 1 (pt m j k)) xo
    (fun q => (blk0_apply m 0 j k q).trans (V_sidx m 0 h (pos k q)))
    (fun q d => (blk1_apply m 0 j k q d).trans (V_sgrad m 0 h (pos k q) d)) r d

/-- The fold's value does not depend on how its position is written. -/
theorem accAt_congr (c : Dev nD) {n n' : ℕ} (e : n = n') (hn : n < (cfgM m).N) (hn' : n' < (cfgM m).N) :
    accAt m c n hn = accAt m c n' hn' := by subst e; rfl

/-- Index block k' as a natural number. -/
def termN (j : Fin 25) (r : Fin 2000) (d : Fin 1024) (k' : ℕ) : EReal := if hk : k' < 128 then term m j r d ⟨k', hk⟩ else 0

/-- The output block after point (j, k): the terms of the index blocks up to k. -/
theorem acc_fold (h : InRange (idxA m 0)) (j : Fin 25) (r : Fin 2000) (d : Fin 1024) : ∀ (n : ℕ) (hn : n < 128),
    (accAt m 0 (pt m j ⟨n, hn⟩).val (pt m j ⟨n, hn⟩).isLt (ix2 r d) : EReal) = ∑ k' ∈ Finset.range (n + 1), termN m j r d k'
  | 0, hn => by
    have h0 : (pt m j ⟨0, hn⟩).val % 128 = 0 := by show (128 * j.val + 0) % 128 = 0; omega
    refine (congrFun (accAt_A m 0 (pt m j ⟨0, hn⟩) h0) (ix2 r d)).trans ?_
    refine (step_pt m h j ⟨0, hn⟩ _ r d).trans ?_
    rw [pay1_apply, zero_add, Finset.sum_range_one]
    unfold termN; rw [dif_pos hn]
  | n + 1, hn => by
    have hn' : n < 128 := by omega
    have h0 : ¬ (pt m j ⟨n + 1, hn⟩).val % 128 = 0 := by show ¬ (128 * j.val + (n + 1)) % 128 = 0; omega
    refine (congrFun (accAt_B m 0 (pt m j ⟨n + 1, hn⟩) h0) (ix2 r d)).trans ?_
    refine (step_pt m h j ⟨n + 1, hn⟩ _ r d).trans ?_
    rw [accAt_congr m 0 (show (pt m j ⟨n + 1, hn⟩).val - 1 = (pt m j ⟨n, hn'⟩).val by show 128 * j.val + (n + 1) - 1 = 128 * j.val + n; omega) _ (pt m j ⟨n, hn'⟩).isLt,
      acc_fold h j r d n hn', Finset.sum_range_succ (n := n + 1)]
    unfold termN; rw [dif_pos hn]

/-- The block at (j, 127) is the scatter-add's block j. -/
theorem acc_last (h : InRange (idxA m 0)) (j : Fin 25) (r : Fin 2000) (d : Fin 1024) :
    (accAt m 0 (pt m j ⟨127, by omega⟩).val (pt m j ⟨127, by omega⟩).isLt (ix2 r d) : EReal)
      = G (gradA m 0) (idxA m 0) (ix2 (⟨2000 * j.val + r.val, by have := j.isLt; have := r.isLt; omega⟩ : Fin 50000) d) := by
  rw [acc_fold m h j r d 127 (by omega), ← Fin.sum_univ_eq_sum_range (fun k' => termN m j r d k') 128]
  rw [show (∑ i : Fin 128, termN m j r d i.val) = ∑ k : Fin 128, term m j r d k from
    Finset.sum_congr rfl fun k _ => by unfold termN; rw [dif_pos k.isLt]]
  exact sorted_blocks_sum (key m) (perm m 0) (perm_bij m 0) (perm_mono m 0 h) (fun n => gradA m 0 (ix2 n d)) j r

/-- The result array after the run is the scatter-add of the arguments. -/
theorem final (c : Dev nD) (h : InRange (idxA m c)) : (dats m 0 c).arrAt 2 (cfgM m).N = G (gradA m c) (idxA m c) := by
  obtain rfl : c = 0 := Subsingleton.elim _ _
  exact final_of_acc m 0 (G (gradA m 0) (idxA m 0)) (acc_last m h)

/-- The kernel's run, read: the result array at the scatter-add of the arguments, the arguments unchanged. -/
theorem run (ρ : Dev nD → PrngReg) (h : ∀ c, InRange (idxA m c)) :
    θ_run defs (onTc (τ := τ) (main (F := Ideal))) ⟨m, fun _ => 0, ρ⟩ (fun r => ∀ c : Dev nD,
      r.2.mem ((c.tc : Thread nD τ).loc main_v23) = G (gradA m c) (idxA m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hp c => ⟨((hp c).1 2).trans (final m c (h c)),
      ((hp c).2 main_arg0 (show main_arg0 ∈ Pipeline.restRefs sig spec0 from Pipeline.mem_restRefs_of main_arg0 (by decide) (by decide))).trans (V_main_arg0 m c),
      ((hp c).2 main_arg1 (show main_arg1 ∈ Pipeline.restRefs sig spec0 from Pipeline.mem_restRefs_of main_arg1 (by decide) (by decide))).trans (V_main_arg1 m c)⟩)
    (run_main m ρ)

end Cert.KernelIdeal.Val

end
-- ==== Proof.RefValue.lean ====
/-
  The reference's scatter-add read at an output element: with every index in range the sign normalisation
  (a negative index plus 50000) changes nothing, the update row n lands at row idx[n], and the host's exact sum over
  the update elements landing at (r, d) is the sum over the updates n with idx[n] = r of grad[n, d].
-/
import proofs.«403225_j53833120088422_2_alg».proof.Proof.ScatterSpec
import proofs.«403225_j53833120088422_2_alg».proof.Proof.Gen.ReferenceIdeal.Read
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.Scatter

/-- The scatter's dimension numbers: the updates' axis 1 is the window axis, the operand's axis 0 is inserted and is
    the one the scalar start index addresses, the index vector lies on the scatter indices' axis 1. -/
abbrev dS := scatter_S50000x1024_S131072x1_S131072x1024_1_0_0_1

/-! ## Where update element (n, d) lands -/

/-- Update element (n, d) reads its one start-index component at scatter-indices position (n, 0). -/
theorem siIdx_eq (n : Fin 131072) (d : Fin 1024) (c : Fin dS.scatterDimsToOperandDims.length) :
    dS.siIdx (ix2 n d) c = ix2 n 0 := by
  funext b
  match b with
  | ⟨0, _⟩ => rfl
  | ⟨1, _⟩ => exact Fin.ext (by have := c.isLt; simp at this; simp [ScatterDims.siIdx]; omega)

/-- On the operand's axis 0 the window starts at the signed index word. -/
theorem start_zero (idx' : IVec S131072x1 32) (n : Fin 131072) (d : Fin 1024) :
    dS.start (ix2 n d) idx' 0 = (idx' (ix2 n 0)).toInt := by
  unfold ScatterDims.start
  rw [dif_pos (by decide)]
  rw [siIdx_eq]

/-- On the operand's axis 1, which no start-index component addresses, the window starts at 0. -/
theorem start_one (idx' : IVec S131072x1 32) (n : Fin 131072) (d : Fin 1024) :
    dS.start (ix2 n d) idx' 1 = 0 := by
  unfold ScatterDims.start
  rw [dif_neg (by decide)]

/-- The inserted axis 0 has window coordinate 0. -/
theorem window_zero (n : Fin 131072) (d : Fin 1024) :
    dS.window (ix2 n d) 0 = 0 := by
  unfold ScatterDims.window
  rw [dif_neg (by decide)]

/-- On axis 1 the window coordinate is the update's column d. -/
theorem window_one (n : Fin 131072) (d : Fin 1024) :
    dS.window (ix2 n d) 1 = d.val := by
  unfold ScatterDims.window
  rw [dif_pos (by decide)]
  rfl

/-- Update element (n, d) lands at output element (r, c) exactly when the signed index word of row n is r and
    d = c; an index outside [0, 50000) lands nowhere. -/
theorem resultIdx_iff (idx' : IVec S131072x1 32) (n : Fin 131072) (d : Fin 1024) (r : Fin 50000) (c : Fin 1024) :
    dS.resultIdx? (ix2 n d) idx' = some (ix2 r c) ↔ (idx' (ix2 n 0)).toInt = (r.val : Int) ∧ d = c := by
  unfold ScatterDims.resultIdx?
  split
  · rename_i h
    rw [Option.some.injEq]
    constructor
    · intro ho
      have h0 := congrArg (fun f => (f 0).val) ho
      have h1 := congrArg (fun f => (f 1).val) ho
      have g0 := (h 0).1
      simp only [start_zero, window_zero, start_one, window_one] at h0 h1 g0
      refine ⟨?_, Fin.ext ?_⟩
      · change _ = r.val at h0
        omega
      · change _ = c.val at h1
        omega
    · rintro ⟨hr, rfl⟩
      funext a
      match a with
      | ⟨0, _⟩ =>
        apply Fin.ext
        change (dS.start (ix2 n d) idx' 0 + (dS.window (ix2 n d) 0 : Int)).toNat = r.val
        rw [start_zero, window_zero, hr]; omega
      | ⟨1, _⟩ =>
        apply Fin.ext
        change (dS.start (ix2 n d) idx' 1 + (dS.window (ix2 n d) 1 : Int)).toNat = d.val
        rw [start_one, window_one]; omega
  · rename_i h
    constructor
    · intro ho; exact absurd ho (by simp)
    · rintro ⟨hr, rfl⟩
      exfalso; apply h
      intro a
      match a with
      | ⟨0, _⟩ =>
        change 0 ≤ dS.start (ix2 n d) idx' 0 + (dS.window (ix2 n d) 0 : Int)
          ∧ dS.start (ix2 n d) idx' 0 + (dS.window (ix2 n d) 0 : Int) < 50000
        rw [start_zero, window_zero, hr]; have := r.isLt; omega
      | ⟨1, _⟩ =>
        change 0 ≤ dS.start (ix2 n d) idx' 1 + (dS.window (ix2 n d) 1 : Int)
          ∧ dS.start (ix2 n d) idx' 1 + (dS.window (ix2 n d) 1 : Int) < 1024
        rw [start_one, window_one]; have := d.isLt; omega

/-! ## The normalised index is the index -/

/-- A word below 50000 (< 2^31) reads the same signed and unsigned. -/
theorem toInt_of_lt (w : BitVec 32) (h : w.toNat < 50000) : w.toInt = (w.toNat : Int) := by
  rw [BitVec.toInt_eq_toNat_cond]; split <;> omega

/-- Such a word is not negative as a signed number. -/
theorem cmpi_slt_zero (w : BitVec 32) (h : w.toNat < 50000) : IntOp.cmpi .slt w 0#32 = 0#1 := by
  have hs : w.slt 0#32 = false := by
    rw [Bool.eq_false_iff]; intro hh
    rw [BitVec.slt_iff_toInt_lt, toInt_of_lt w h] at hh
    simp at hh; omega
  simp only [IntOp.cmpi, hs]; rfl

/-- With every index in range the scatter indices at (n, 0) hold idx[n]: the select keeps the index. -/
theorem v6_eq (idx : IVec S131072 32) (h : InRange idx) (n : Fin 131072) :
    Read.val_main_v6 (F := Ideal) idx (ix2 n 0) = idx (ix1 n) := by
  have hi : Read.idx_main_v6 (ix2 n (0 : Fin 1)) = ix1 n := by
    funext a; match a with | ⟨0, _⟩ => rfl
  rw [Read.val_main_v6_apply, Read.val_main_v5_apply, Read.val_main_v2_apply, Read.val_main_v1_apply,
    Read.val_main_c_apply, hi, cmpi_slt_zero _ (h n), select_zero]

/-! ## The sum -/

/-- Of update row n, the elements landing at (r, c) sum to grad[n, c] when idx[n] = r and to 0 otherwise. -/
theorem inner_sum (grad : FVec Ideal S131072x1024 .f32) (idx : IVec S131072 32) (h : InRange idx)
    (n : Fin 131072) (r : Fin 50000) (c : Fin 1024) :
    (∑ d : Fin 1024, if dS.resultIdx? (ix2 n d) (Read.val_main_v6 (F := Ideal) idx) = some (ix2 r c)
        then grad (ix2 n d) else 0)
      = if (idx (ix1 n)).toNat = r.val then grad (ix2 n c) else 0 := by
  simp only [resultIdx_iff, v6_eq idx h, toInt_of_lt _ (h n), Nat.cast_inj]
  by_cases hr : (idx (ix1 n)).toNat = r.val
  · simp only [hr, true_and, if_true]
    rw [Finset.sum_ite_eq' Finset.univ c (fun d => grad (ix2 n d)), if_pos (Finset.mem_univ c)]
  · simp only [hr, false_and, if_false]
    exact Finset.sum_const_zero

/-- The reference's result term, at the ideal instance, is the specification. -/
theorem ref_eq (grad : FVec Ideal S131072x1024 .f32) (idx : IVec S131072 32) (h : InRange idx) :
    Cert.ReferenceIdeal.Read.val_main_v7 (F := Ideal) grad idx = G grad idx := by
  funext o
  obtain ⟨r, c, rfl⟩ : ∃ (r : Fin 50000) (c : Fin 1024), o = ix2 r c := ⟨o 0, o 1, eq_ix2 o⟩
  show Ideal.hostScatterAdd dS (Read.val_main_v0 (F := Ideal)) (Read.val_main_v6 (F := Ideal) idx) grad (ix2 r c) = _
  unfold Ideal.hostScatterAdd G
  rw [Read.val_main_v0_apply, Read.val_main_cst_apply, Ideal.ofBits_def, Ideal.ofBits_zero_f32, zero_add,
    Finset.sum_filter, sum_idx2]
  exact Finset.sum_congr rfl (fun n _ => inner_sum grad idx h n r c)

end Cert.ReferenceIdeal.RefValue

end
-- ==== Proof.PreDecode.lean ====
/-
  The precondition read at an element: the printed predicate is the conjunction of "every gradient entry is finite"
  and "every index is at least 0 and below 50000" (signed), reduced over the whole arrays; where it is all ones every
  index, read unsigned, is below 50000.
-/
import proofs.«403225_j53833120088422_2_alg».proof.Proof.ScatterSpec
import proofs.«403225_j53833120088422_2_alg».proof.Proof.Gen.Pre_finite_inputs
import Idealize.ShloMosaic.Lib.ReduceAll

noncomputable section

namespace Cert.Pre_finite_inputs.Decode

open Idealize.ShloMosaic Idealize.ShloMosaic.ValueIdx Cert.Pre_finite_inputs Cert.Scatter

/-- A word that is at least 0 and below 50000 read signed is below 50000 read unsigned: a nonnegative signed reading
    is the unsigned one. -/
theorem toNat_lt_of_signed {w : BitVec 32} (h₁ : (0#32 : BitVec 32).toInt ≤ w.toInt)
    (h₂ : w.toInt < (50000#32 : BitVec 32).toInt) : w.toNat < 50000 := by
  rw [show (0#32 : BitVec 32).toInt = 0 from by decide] at h₁
  rw [show (50000#32 : BitVec 32).toInt = 50000 from by decide] at h₂
  have := BitVec.toInt_eq_toNat_cond w
  split at this <;> omega

/-- Where the precondition holds, every index names an output row. -/
theorem inRange_of_pre [Cert.Pre_finite_inputs.Facts] {F : FTy → Type} [FloatOps F] (grad : FVec F S131072x1024 .f32) (idx : IVec S131072 32)
    (h : Cert.Pre_finite_inputs.fn (F := F) grad idx = fun _ => 1#1) : InRange idx := by
  intro n
  -- the rank-0 result at its one index: a conjunction of the two reductions, of which the second is kept
  have h0 := congrFun h ValueIdx.ix0
  dsimp only [fn] at h0
  obtain ⟨-, h2⟩ := IntOp.andi_eq_one.1 h0
  -- a reduction by "and" over all of the array that is 1 met a 1 at every element
  haveI : Subsingleton S_.Idx := ⟨fun a b => funext fun d => d.elim0⟩
  have h3 := Host.reduce_andi_all _ _ _ _ _ h2 (ix1 n)
  -- at element n: 0 ≤ idx n and idx n < 50000, both signed
  obtain ⟨h4, h5⟩ := IntOp.andi_eq_one.1 h3
  exact toNat_lt_of_signed (IntOp.cmpi_sge.1 h4) (IntOp.cmpi_slt.1 h5)

end Cert.Pre_finite_inputs.Decode

end
-- ==== Proof.lean ====
/-
  The certificate of the sorted one-hot scatter-add kernel against jnp's `zeros(50000, 1024).at[indices].add(grad)`,
  under the precondition that every gradient entry is finite and every index names one of the 50000 output rows.

  The kernel clips the indices (the identity on in-range indices), sorts them stably, takes the gradient rows (as
  bf16, the identity on the extended reals) in the sorted order, and on a grid of 25 row blocks × 128 index blocks adds,
  into the 2000 × 1024 output block of row block j, the product of the one-hot matrix [sorted index q = row] with the
  sorted gradient's block k — skipping block k when the interval from its first to its last sorted index misses the
  2000 rows (then the one-hot matrix is zero, the indices being sorted). Over the extended reals 0 · x = 0 and 1 · x = x
  for every x, so the block at (j, 127) is the sum, over the updates whose index is the row, of the gradient's entry:
  the reference's scatter-add, whose own result at (r, d) is that sum by definition of the exact accumulation.

  The three frames: each kernel program runs its host operations, then the pipelined region whose body is run once per
  control case (the first index block resets the output block; the skip test decides whether the block is touched), the
  output block carried from point to point as a fold; the reference is a straight line of host operations.
-/
import proofs.«403225_j53833120088422_2_alg».proof.Defs
import proofs.«403225_j53833120088422_2_alg».proof.Proof.Gen.Kernel
import proofs.«403225_j53833120088422_2_alg».proof.Proof.Gen.Kernel.Skeleton
import proofs.«403225_j53833120088422_2_alg».proof.Proof.Gen.Kernel.Launch
import proofs.«403225_j53833120088422_2_alg».proof.Proof.Gen.Kernel.Flash
import proofs.«403225_j53833120088422_2_alg».proof.Proof.Gen.KernelIdeal
import proofs.«403225_j53833120088422_2_alg».proof.Proof.Gen.KernelIdeal.Skeleton
import proofs.«403225_j53833120088422_2_alg».proof.Proof.Gen.KernelIdeal.Launch
import proofs.«403225_j53833120088422_2_alg».proof.Proof.Gen.KernelIdeal.Flash
import proofs.«403225_j53833120088422_2_alg».proof.Proof.Gen.ReferenceIdeal
import proofs.«403225_j53833120088422_2_alg».proof.Proof.Gen.ReferenceIdeal.Run
import proofs.«403225_j53833120088422_2_alg».proof.Proof.Gen.ReferenceIdeal.Read
import proofs.«403225_j53833120088422_2_alg».proof.Proof.Gen.Pre_finite_inputs
import proofs.«403225_j53833120088422_2_alg».proof.Proof.KernelFrame
import proofs.«403225_j53833120088422_2_alg».proof.Proof.KernelIdealValue
import proofs.«403225_j53833120088422_2_alg».proof.Proof.RefValue
import proofs.«403225_j53833120088422_2_alg».proof.Proof.PreDecode
import Idealize.ShloMosaic.Adequacy
import Idealize.ShloMosaic.Init

noncomputable section

namespace Cert.Proof

open Idealize.ShloMosaic Idealize.ShloMosaic.TcCoe Idealize.SL.Sem Cert.Scatter

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the scatter-add of the arguments. -/
theorem algebraic : Cert.algebraic_KernelIdeal_ReferenceIdeal := by
  intro m ρ m' ρ' hpre hagree
  have hr : ∀ c, InRange (Cert.KernelIdeal.Host.idxA m c) := fun c =>
    Cert.Pre_finite_inputs.Decode.inRange_of_pre _ _ (hpre c)
  refine ⟨fun c => G (Cert.KernelIdeal.Host.gradA m c) (Cert.KernelIdeal.Host.idxA m c), Cert.KernelIdeal.Val.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2]
  exact Cert.ReferenceIdeal.RefValue.ref_eq _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
